-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.named_const.Statement Cert.KernelIdeal.κ "inv_temperature" .f32 0x41649249#32 ((134217728 / 9395241 : ℝ) : EReal)
  ∧ IdealRules.named_const.Statement Cert.KernelIdeal.κ "inv_temperature" .f32 0x41649249#32 ((134217728 / 9395241 : ℝ) : EReal)
  ∧ IdealRules.named_const.Statement Cert.KernelIdeal.κ "inv_temperature" .f32 0x41649249#32 ((134217728 / 9395241 : ℝ) : EReal)
  ∧ IdealRules.named_const.Statement Cert.KernelIdeal.κ "inv_temperature" .f32 0x41649249#32 ((134217728 / 9395241 : ℝ) : EReal)
  ∧ IdealRules.named_const.Statement Cert.KernelIdeal.κ "inv_temperature" .f32 0x41649249#32 ((134217728 / 9395241 : ℝ) : EReal)
  ∧ IdealRules.named_const.Statement Cert.KernelIdeal.κ "inv_temperature" .f32 0x41649249#32 ((134217728 / 9395241 : ℝ) : EReal)
  ∧ IdealRules.named_const.Statement Cert.KernelIdeal.κ "inv_temperature" .f32 0x41649249#32 ((134217728 / 9395241 : ℝ) : EReal)
  ∧ IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x64x384 : Shape := ⟨4, ![4, 64, 64, 384]⟩
abbrev S_ : Shape := ⟨0, ![]⟩

class Facts : Prop where
  bcast_S_S4x64x64x384 : S_.BroadcastsInDim S4x64x64x384 (![] : Fin 0 → Fin S4x64x64x384.rank)
  reducesTo_S4x64x64x384_S_d0_1_2_3 : S4x64x64x384.ReducesTo [0, 1, 2, 3] S_
  h_S_ : 0 < S_.numel

variable [Facts]

def fn {F : FTy → Type} [FloatOps F] (main_arg0 : FVec F S4x64x64x384 .f32) : IVec S_ 1 :=
  let main_v0 : FVec F S4x64x64x384 .f32 := Host.absf main_arg0
  let main_cst : FVec F S_ .f32 := constant S_ .f32 0x7F800000#32
  let main_v1 : FVec F S4x64x64x384 .f32 := broadcastInDim S4x64x64x384 ![] bcast_S_S4x64x64x384 main_cst
  let main_v2 : IVec S4x64x64x384 1 := cmpf .olt main_v0 main_v1
  let main_c : IVec S_ 1 := constantI S_ 1 1#1
  let main_v3 : IVec S_ 1 := (fun x v => Host.reduce IntOp.andi x v reducesTo_S4x64x64x384_S_d0_1_2_3 h_S_) main_v2 main_c
  main_v3
-- ==== Kernel.lean ====
abbrev S4x64x64x384 : Shape := ⟨4, ![4, 64, 64, 384]⟩
abbrev S4x4096x384 : Shape := ⟨3, ![4, 4096, 384]⟩
abbrev S1x4096x384 : Shape := ⟨3, ![1, 4096, 384]⟩
abbrev S1x512x384 : Shape := ⟨3, ![1, 512, 384]⟩
abbrev S4096x384 : Shape := ⟨2, ![4096, 384]⟩
abbrev S4096 : Shape := ⟨1, ![4096]⟩
abbrev S4096x1 : Shape := ⟨2, ![4096, 1]⟩
abbrev S512x384 : Shape := ⟨2, ![512, 384]⟩
abbrev S512 : Shape := ⟨1, ![512]⟩
abbrev S512x1 : Shape := ⟨2, ![512, 1]⟩
abbrev S1024x384 : Shape := ⟨2, ![1024, 384]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4x64x64x384, .f32⟩
  | .hbm, ⟨1, _⟩ => ⟨S4x4096x384, .f32⟩
  | .hbm, ⟨2, _⟩ => ⟨S4x4096x384, .f32⟩
  | .hbm, ⟨3, _⟩ => ⟨S4x64x64x384, .f32⟩
  | .local _ .vmem, ⟨0, _⟩ => ⟨S1x4096x384, .f32⟩
  | .local _ .vmem, ⟨1, _⟩ => ⟨S1x4096x384, .f32⟩
  | .local _ .vmem, ⟨2, _⟩ => ⟨S1x512x384, .f32⟩
  | .local _ .vmem, ⟨3, _⟩ => ⟨S1x512x384, .f32⟩
  | .local _ .vmem, ⟨4, _⟩ => ⟨S4096x384, .bf16⟩
  | .local _ .vmem, ⟨5, _⟩ => ⟨S4096x384, .bf16⟩
  | _, _ => ⟨S4x64x64x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 3 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0_1 : Index := 0#32
  ![0, v5.toNat, 0]
def k0_mult2 : BitVec 32 :=
  let c0_i32_5 : BitVec 32 := 0#32
  let c1024_i32 : BitVec 32 := 1024#32
  let v19 : BitVec 32 := Scalar.muli c0_i32_5 c1024_i32
  v19
def k0_off2 (c0_i32_5 : BitVec 32) : Fin 2 → Nat :=
  let c1024_i32 : BitVec 32 := 1024#32
  let v19 : BitVec 32 := Scalar.muli c0_i32_5 c1024_i32
  let v20 : BitVec 32 := v19
  let v21 : Index := Scalar.indexCast v20
  let c0_6 : Index := 0#32
  ![v21.toNat, 0]
def k0_mult3 : BitVec 32 :=
  let c1_i32 : BitVec 32 := 1#32
  let c1024_i32_13 : BitVec 32 := 1024#32
  let v37 : BitVec 32 := Scalar.muli c1_i32 c1024_i32_13
  v37
def k0_mult4 : BitVec 32 :=
  let c2_i32 : BitVec 32 := 2#32
  let c1024_i32_21 : BitVec 32 := 1024#32
  let v55 : BitVec 32 := Scalar.muli c2_i32 c1024_i32_21
  v55
def k0_mult5 : BitVec 32 :=
  let c3_i32 : BitVec 32 := 3#32
  let c1024_i32_29 : BitVec 32 := 1024#32
  let v73 : BitVec 32 := Scalar.muli c3_i32 c1024_i32_29
  v73
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S4x64x64x384_S4x4096x384 : S4x64x64x384.ShapeCasts S4x4096x384
  inb_S1x4096x384_S1x4096x384_0_0_0 : ∀ a, (![0, 0, 0] : Fin 3 → Nat) a + S1x4096x384.size a ≤ S1x4096x384.size a
  h_S1x4096x384 : 0 < S1x4096x384.numel
  shapeCasts_S1x4096x384_S4096x384 : S1x4096x384.ShapeCasts S4096x384
  reduces_S4096x384_S4096 : S4096x384.Reduces [1] S4096
  shapeCasts_S4096_S4096x1 : S4096.ShapeCasts S4096x1
  broadcasts_S4096x1_S4096x384 : S4096x1.Broadcasts S4096x384
  bitsLt_bf16_f32 : FTy.bits .bf16 < FTy.bits .f32
  inb_S4096x384_S4096x384_0_0 : ∀ a, (![0, 0] : Fin 2 → Nat) a + S4096x384.size a ≤ S4096x384.size a
  h_S4096x384 : 0 < S4096x384.numel
  shapeCasts_S4096x384_S4096x384 : S4096x384.ShapeCasts S4096x384
  packedbf16_S4096x384_S4096x384_0_0 : (Rect.unit (s := S4096x384) ![0, 0] S4096x384.size inb_S4096x384_S4096x384_0_0).PackedRows (EltTy.packing .bf16)
  h_S1x512x384 : 0 < S1x512x384.numel
  shapeCasts_S1x512x384_S512x384 : S1x512x384.ShapeCasts S512x384
  reduces_S512x384_S512 : S512x384.Reduces [1] S512
  shapeCasts_S512_S512x1 : S512.ShapeCasts S512x1
  broadcasts_S512x1_S512x384 : S512x1.Broadcasts S512x384
  h_S1024x384 : 0 < S1024x384.numel
  reduces_S512x1024_S512 : S512x1024.Reduces [1] S512
  inb_S1x512x384_S1x512x384_0_0_0 : ∀ a, (![0, 0, 0] : Fin 3 → Nat) a + S1x512x384.size a ≤ S1x512x384.size a
  shapeCasts_S512x384_S1x512x384 : S512x384.ShapeCasts S1x512x384
  shapeCasts_S4x4096x384_S4x64x64x384 : S4x4096x384.ShapeCasts S4x64x64x384
  dot_S512x384_S1024x384_S512x1024_1_1_0_0_n_n_wf : DotDims.WF S512x384 S1024x384 S512x1024 [1] [1] [0] [0] [] []
  dot_S512x1024_S1024x384_S512x384_1_0_0_1_n_n_wf : DotDims.WF S512x1024 S1024x384 S512x384 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x384.size a ≤ S1x4096x384.size a
  k0_mult2_dvd : 1024 ∣ k0_mult2.toNat
  k0_off2_inb : ∀ (r : Fin 4), ∀ a, (k0_off2 (BitVec.ofNat 32 r.val)) a + S1024x384.size a ≤ S4096x384.size a
  k0_mult3_dvd : 1024 ∣ k0_mult3.toNat
  k0_mult4_dvd : 1024 ∣ k0_mult4.toNat
  k0_mult5_dvd : 1024 ∣ k0_mult5.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x384.size a ≤ S4x4096x384.size a
  hwx0_0 : ∀ i : grid0.Coords, EltTy.bits .f32 = 32 ∨ (Rect.block (s := S4x4096x384) S1x4096x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x384.size a ≤ S4x4096x384.size a
  hwx0_1 : ∀ i : grid0.Coords, EltTy.bits .f32 = 32 ∨ (Rect.block (s := S4x4096x384) S1x512x384.size (cc0_transform_1 i) (hinb0_1 i)).WholeWords (EltTy.packing .f32)

variable [Facts₀]

def dot_S512x384_S1024x384_S512x1024_1_1_0_0_n_n : DotDims S512x384 S1024x384 S512x1024 where
  lhsContracting := [1]
  rhsContracting := [1]
  lhsNonContracting := [0]
  rhsNonContracting := [0]
  lhsBatch := []
  rhsBatch := []
  wf := dot_S512x384_S1024x384_S512x1024_1_1_0_0_n_n_wf
def dot_S512x1024_S1024x384_S512x384_1_0_0_1_n_n : DotDims S512x1024 S1024x384 S512x384 where
  lhsContracting := [1]
  rhsContracting := [0]
  lhsNonContracting := [0]
  rhsNonContracting := [1]
  lhsBatch := []
  rhsBatch := []
  wf := dot_S512x1024_S1024x384_S512x384_1_0_0_1_n_n_wf

abbrev win0_0 : Pipeline.Window sig grid0 :=
  Pipeline.Window.ofSpec (Memref.whole main_v0) S1x4096x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x384.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x64x64x384 : Shape := ⟨4, ![4, 64, 64, 384]⟩
abbrev S4x4096x384 : Shape := ⟨3, ![4, 4096, 384]⟩
abbrev S_ : Shape := ⟨0, ![]⟩
abbrev S4x4096 : Shape := ⟨2, ![4, 4096]⟩
abbrev S4x4096x1 : Shape := ⟨3, ![4, 4096, 1]⟩
abbrev S4x4096x4096 : Shape := ⟨3, ![4, 4096, 4096]⟩

abbrev nBuf : Space → Nat
  | .hbm => 36
  | .vmem => 0
  | .smem => 0
  | _ => 0

abbrev bufTy : (tb : Table) → Fin (tcTables nBuf tb) → BufTy
  | .hbm, ⟨0, _⟩ => ⟨S4x64x64x384, .f32⟩
  | .hbm, ⟨1, _⟩ => ⟨S4x4096x384, .f32⟩
  | .hbm, ⟨2, _⟩ => ⟨S4x4096x384, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S4x4096x384, .f32⟩
  | .hbm, ⟨11, _⟩ => ⟨S4x4096x384, .f32⟩
  | .hbm, ⟨12, _⟩ => ⟨S4x4096x4096, .f32⟩
  | .hbm, ⟨13, _⟩ => ⟨S_, .f32⟩
  | .hbm, ⟨14, _⟩ => ⟨S4x4096x4096, .f32⟩
  | .hbm, ⟨15, _⟩ => ⟨S4x4096x4096, .f32⟩
  | .hbm, ⟨16, _⟩ => ⟨S_, .f32⟩
  | .hbm, ⟨17, _⟩ => ⟨S4x4096, .f32⟩
  | .hbm, ⟨18, _⟩ => ⟨S_, .f32⟩
  | .hbm, ⟨19, _⟩ => ⟨S4x4096, .f32⟩
  | .hbm, ⟨20, _⟩ => ⟨S4x4096, .f32⟩
  | .hbm, ⟨21, _⟩ => ⟨S4x4096x1, .f32⟩
  | .hbm, ⟨22, _⟩ => ⟨S4x4096x4096, .f32⟩
  | .hbm, ⟨23, _⟩ => ⟨S4x4096x4096, .f32⟩
  | .hbm, ⟨24, _⟩ => ⟨S4x4096x4096, .f32⟩
  | .hbm, ⟨25, _⟩ => ⟨S_, .f32⟩
  | .hbm, ⟨26, _⟩ => ⟨S4x4096, .f32⟩
  | .hbm, ⟨27, _⟩ => ⟨S4x4096x1, .f32⟩
  | .hbm, ⟨28, _⟩ => ⟨S4x4096x4096, .f32⟩
  | .hbm, ⟨29, _⟩ => ⟨S4x4096x4096, .f32⟩
  | .hbm, ⟨30, _⟩ => ⟨S4x4096x384, .f32⟩
  | .hbm, ⟨31, _⟩ => ⟨S_, .f32⟩
  | .hbm, ⟨32, _⟩ => ⟨S4x4096x384, .f32⟩
  | .hbm, ⟨33, _⟩ => ⟨S4x4096x384, .f32⟩
  | .hbm, ⟨34, _⟩ => ⟨S4x4096x384, .f32⟩
  | .hbm, ⟨35, _⟩ => ⟨S4x64x64x384, .f32⟩
  | _, _ => ⟨S4x64x64x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  shapeCasts_S4x64x64x384_S4x4096x384 : S4x64x64x384.ShapeCasts S4x4096x384
  reducesTo_S4x4096x384_S4x4096_d2 : S4x4096x384.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x384_0_1_2 : S4x4096x1.BroadcastsInDim S4x4096x384 (![0, 1, 2] : Fin 3 → Fin S4x4096x384.rank)
  bcast_S_S4x4096x4096 : S_.BroadcastsInDim S4x4096x4096 (![] : Fin 0 → Fin S4x4096x4096.rank)
  reducesTo_S4x4096x4096_S4x4096_d2 : S4x4096x4096.ReducesTo [2] S4x4096
  bcast_S_S4x4096 : S_.BroadcastsInDim S4x4096 (![] : Fin 0 → Fin S4x4096.rank)
  bcast_S4x4096x1_S4x4096x4096_0_1_2 : S4x4096x1.BroadcastsInDim S4x4096x4096 (![0, 1, 2] : Fin 3 → Fin S4x4096x4096.rank)
  bcast_S_S4x4096x384 : S_.BroadcastsInDim S4x4096x384 (![] : Fin 0 → Fin S4x4096x384.rank)
  shapeCasts_S4x4096x384_S4x64x64x384 : S4x4096x384.ShapeCasts S4x64x64x384
  dot_S4x4096x384_S4x4096x384_S4x4096x4096_2_2_1_1_0_0_wf : DotDims.WF S4x4096x384 S4x4096x384 S4x4096x4096 [2] [2] [1] [1] [0] [0]
  dot_S4x4096x4096_S4x4096x384_S4x4096x384_2_1_1_2_0_0_wf : DotDims.WF S4x4096x4096 S4x4096x384 S4x4096x384 [2] [1] [1] [2] [0] [0]

variable [Facts₀]

def dot_S4x4096x384_S4x4096x384_S4x4096x4096_2_2_1_1_0_0 : DotDims S4x4096x384 S4x4096x384 S4x4096x4096 where
  lhsContracting := [2]
  rhsContracting := [2]
  lhsNonContracting := [1]
  rhsNonContracting := [1]
  lhsBatch := [0]
  rhsBatch := [0]
  wf := dot_S4x4096x384_S4x4096x384_S4x4096x4096_2_2_1_1_0_0_wf
def dot_S4x4096x4096_S4x4096x384_S4x4096x384_2_1_1_2_0_0 : DotDims S4x4096x4096 S4x4096x384 S4x4096x384 where
  lhsContracting := [2]
  rhsContracting := [1]
  lhsNonContracting := [1]
  rhsNonContracting := [2]
  lhsBatch := [0]
  rhsBatch := [0]
  wf := dot_S4x4096x4096_S4x4096x384_S4x4096x384_2_1_1_2_0_0_wf

class Facts : Prop extends Facts₀ where

variable [Facts]
-- ==== Proof.KernelTile.lean ====
/-
  What one grid point of the attention kernel leaves behind, as values.

  A grid point `(b, q)` sees the whole `[1, 4096, 384]` block of batch `b` and two `[4096, 384]` scratch arrays. At the
  first query tile of a batch (`q = 0`) it fills the first scratch with the block's rows divided by their norms and
  the second with the block's rows as they are; at every point it then writes the `[1, 512, 384]` output block from
  rows `512 q … 512 q + 511` of the block (the queries) and the four 1024-row quarters of each scratch (the keys and
  the values), accumulating the softmax numerator and denominator quarter by quarter.

  Here that is stated as three equations between terms: the two scratch arrays after a first point (`scratchKeys`,
  `scratchVals`), and the output block after any point as ONE function `tile` of the block and of what the two scratch
  arrays hold (`outFirst`: the scratch just written; `outLater`: the scratch as the point before left it).
-/
import proofs.«408302_j88141318848696_3_alg».proof.Proof.Gen.KernelIdeal.Frame
import Idealize.ShloMosaic.Lib.Pipeline.Value
import Idealize.ShloMosaic.Lib.Tactic

set_option maxRecDepth 16384

noncomputable section

namespace Cert.KernelIdeal.Tile

open Idealize.ShloMosaic Idealize.ShloMosaic.TcCoe Idealize.ShloMosaic.Tactic Idealize.SL.Sem
open Cert.KernelIdeal Cert.KernelIdeal.Gen

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 1024 rows of a `[4096, 384]` array that start at row `o`. -/
abbrev quarter (o : Nat) (h : ∀ a, (![o, 0] : Fin 2 → Nat) a + S1024x384.size a ≤ S4096x384.size a)
    (xs : Vec F S4096x384 .bf16) : Vec F S1024x384 .bf16 :=
  View.ld xs (Rect.unit ![o, 0] S1024x384.size h)

theorem inb0 : ∀ a, (![0, 0] : Fin 2 → Nat) a + S1024x384.size a ≤ S4096x384.size a := by decide
theorem inb1 : ∀ a, (![1024, 0] : Fin 2 → Nat) a + S1024x384.size a ≤ S4096x384.size a := by decide
theorem inb2 : ∀ a, (![2048, 0] : Fin 2 → Nat) a + S1024x384.size a ≤ S4096x384.size a := by decide
theorem inb3 : ∀ a, (![3072, 0] : Fin 2 → Nat) a + S1024x384.size a ≤ S4096x384.size a := by decide

/-- The 512 query rows of the block that grid point `i` works on: rows `512 · i₁ …`. -/
abbrev queries (i : grid0.Coords) (x0 : Vec F S1x4096x384 .f32) : Vec F S1x512x384 .f32 :=
  View.ld x0 (Rect.unit (k0_off1 i) S1x512x384.size (k0_off1_inb i))

/-- The output block of grid point `i` from the batch's block `x0`, the key scratch `ks` and the value scratch `vs`:
    the body's arithmetic over the query rows and the four quarters of each scratch, first to last. -/
def tile (i : grid0.Coords) (x0 : Vec F S1x4096x384 .f32) (ks vs : Vec F S4096x384 .bf16) : Vec F S1x512x384 .f32 :=
  k0_pay1 (k0_pay5 (queries i x0)) (k0_pay6 (queries i x0))
    (k0_pay12 (k0_pay6 (queries i x0)) (k0_pay8 (queries i x0) (quarter 0 inb0 ks)) (quarter 1024 inb1 ks) (quarter 2048 inb2 ks))
    (k0_pay13 (k0_pay6 (queries i x0)) (k0_pay9 (queries i x0) (quarter 0 inb0 ks) (quarter 0 inb0 vs))
      (quarter 1024 inb1 ks) (quarter 1024 inb1 vs) (quarter 2048 inb2 ks) (quarter 2048 inb2 vs))
    (quarter 3072 inb3 ks) (quarter 3072 inb3 vs)

section pieces

variable (c : Dev nD) (i : grid0.Coords) (arg2 : Memref sig .tc .vmem S1x4096x384 .f32) (harg2 : arg2.IsWhole)
  (arg3 : Memref sig .tc .vmem S1x512x384 .f32) (harg3 : arg3.IsWhole) (arg4 : Memref sig .tc .vmem S4096x384 .bf16) (harg4 : arg4.IsWhole)
  (arg5 : Memref sig .tc .vmem S4096x384 .bf16) (harg5 : arg5.IsWhole)

/-- A first point leaves the normalised rows of its block in the key scratch. -/
theorem scratchKeys (hc0 : cond0_0 i) (x0 : Vec F S1x4096x384 .f32) :
    sout0_A_0 c i arg2 harg2 arg3 harg3 arg4 harg4 arg5 harg5 hc0 x0 = k0_pay3 x0 := by
  unfold sout0_A_0
  rw [View.read_writes_eq_canon _ _ _ (scover0_A_0 c i arg2 harg2 arg3 harg3 arg4 harg4 arg5 harg5 hc0 x0)]
  unfold kernelRun0_A
  dsimp only
  sl_unfold_words
  rw [View.canon_unit_zero hz2]
  simp only [View.readAt_eq_ld, harg2.read_unread, View.ld_unit_zero (S := S1x4096x384) hz3]

/-- A first point leaves the rows of its block in the value scratch. -/
theorem scratchVals (hc0 : cond0_0 i) (x0 : Vec F S1x4096x384 .f32) :
    sout0_A_1 c i arg2 harg2 arg3 harg3 arg4 harg4 arg5 harg5 hc0 x0 = k0_pay4 x0 := by
  unfold sout0_A_1
  rw [View.read_writes_eq_canon _ _ _ (scover0_A_1 c i arg2 harg2 arg3 harg3 arg4 harg4 arg5 harg5 hc0 x0)]
  unfold kernelRun0_A
  dsimp only
  sl_unfold_words
  rw [View.canon_unit_zero hz2]
  simp only [View.readAt_eq_ld, harg2.read_unread, View.ld_unit_zero (S := S1x4096x384) hz3]

/-- A later point of a batch leaves, in the output block, the tile of its block and of the scratch it found. -/
theorem outLater (hc0 : ¬cond0_0 i) (x0 : Vec F S1x4096x384 .f32) (xs0 xs1 : Vec F S4096x384 .bf16) :
    out0_B_1 c i arg2 harg2 arg3 harg3 arg4 harg4 arg5 harg5 hc0 x0 xs0 xs1 = tile i x0 xs0 xs1 := by
  unfold out0_B_1
  rw [View.read_writes_eq_canon _ _ _ (cover0_B_1 c i arg2 harg2 arg3 harg3 arg4 harg4 arg5 harg5 hc0 x0 xs0 xs1)]
  unfold kernelRun0_B
  dsimp only
  sl_unfold_words
  rw [View.canon_unit_zero hz3]
  simp only [View.readAt_eq_ld, harg2.read_unread, harg4.read_unread, harg5.read_unread]
  rfl

/-- A load, through any rectangle, of a whole-array store just made reads the stored array there. -/
theorem readCov_whole_store {sig' : RefSig} (v : View sig' .tc .vmem S4096x384 .bf16) (w : S4096x384.Idx → Elt F .bf16)
    (inb : ∀ a, (![0, 0] : Fin 2 → Nat) a + (![4096, 384] : Fin 2 → Nat) a ≤ S4096x384.size a) (r : Rect S4096x384) :
    v.readCov [(⟨Rect.unit ![0, 0] ![4096, 384] inb, w⟩ : View.Piece (Elt F) S4096x384 .bf16)] r.toLoadRect = View.ld w r := by
  rw [View.readCov_eq_canon_ld _ _ _ (fun y => ⟨_, List.mem_singleton_self _, View.mem_set_unit_zero hz2 inb y⟩),
    View.canon_unit_zero hz2]

/-- The first point of a batch leaves, in the output block, the tile of its block and of the scratch it has just
    filled from that block. -/
theorem outFirst (hc0 : cond0_0 i) (x0 : Vec F S1x4096x384 .f32) :
    out0_A_1 c i arg2 harg2 arg3 harg3 arg4 harg4 arg5 harg5 hc0 x0 = tile i x0 (k0_pay3 x0) (k0_pay4 x0) := by
  unfold out0_A_1
  rw [View.read_writes_eq_canon _ _ _ (cover0_A_1 c i arg2 harg2 arg3 harg3 arg4 harg4 arg5 harg5 hc0 x0)]
  unfold kernelRun0_A
  dsimp only
  sl_unfold_words
  rw [View.canon_unit_zero hz3]
  simp only [readCov_whole_store, View.readAt_eq_ld, harg2.read_unread, View.ld_unit_zero (S := S1x4096x384) hz3]
  rfl

end pieces

end Cert.KernelIdeal.Tile

end
-- ==== Proof.KernelPoints.lean ====
/-
  Every grid point's output block depends on that point's batch alone.

  The grid has 32 points, `t = 8 b + q`: batch `b = t / 8`, query tile `q = t % 8`. The input window shows point `t` the
  whole block of batch `t / 8`, so consecutive points of one batch see the same block. The scratch arrays are filled
  at the points with `t % 8 = 0` and left alone otherwise; by induction on `t`, after point `t` they hold the
  normalised rows and the rows of the block of batch `t / 8`. Hence what point `t` leaves in its output block is the
  tile (Tile.lean) of its own block and of the two arrays computed from that same block.
-/
import proofs.«408302_j88141318848696_3_alg».proof.Proof.KernelTile
import Idealize.ShloMosaic.Lib.ValueIdx

set_option maxRecDepth 16384

noncomputable section

namespace Cert.KernelIdeal.Tile

open Idealize.ShloMosaic Idealize.ShloMosaic.TcCoe Idealize.ShloMosaic.ValueIdx Idealize.SL.Sem
open Cert.KernelIdeal Cert.KernelIdeal.Gen

variable {F : FTy → Type} [FloatOps F] [Named F]
variable (m : (ℓ : Loc nD τ sig) → Buf (Elt F) ℓ)

/-- The block indices of the two windows and the query-tile coordinate, decided over the 32 points: the input
    window sits at batch `t / 8`; the output window at batch `t / 8`, tile `t % 8`. -/
theorem idx_facts : ∀ t : Fin cfg0.N, win0_0.index t (0 : Fin 3) = t.val / 8 ∧ win0_0.index t (1 : Fin 3) = 0
    ∧ win0_0.index t (2 : Fin 3) = 0 ∧ win0_1.index t (0 : Fin 3) = t.val / 8 ∧ win0_1.index t (1 : Fin 3) = t.val % 8
    ∧ win0_1.index t (2 : Fin 3) = 0 ∧ ((grid0.coords t) 1).val = t.val % 8 :=
  (by decide +kernel : ∀ t : Fin grid0.N, _)

/-- The block of batch `b` of a `[4, 4096, 384]` array, as a `[1, 4096, 384]` array. -/
def batchBlock (X : S4x4096x384.Idx → Elt F .f32) (b : Fin 4) : Vec F S1x4096x384 .f32 := fun y => X (ix3 b (y 1) (y 2))

/-- The batch of grid point `t`. -/
def batchOf (t : Fin cfg0.N) : Fin 4 := ⟨t.val / 8, by have := t.isLt; have : cfg0.N = 32 := N_0; omega⟩

/-- The input block of point `t`, at its literal type. -/
abbrev inBlock (c : Dev nD) (t : Fin cfg0.N) : Vec F S1x4096x384 .f32 := iblk m c 0 t

/-- Point `t` sees the block of batch `t / 8` of the array the region finds. -/
theorem inBlock_eq (c : Dev nD) (t : Fin cfg0.N) : inBlock m c t = batchBlock (V m c main_v0) (batchOf t) := by
  obtain ⟨e0, e1, e2, -⟩ := idx_facts t
  funext y
  show V m c main_v0 (((cfg0.win 0).blk t).view.emb y) = V m c main_v0 (ix3 (batchOf t) (y 1) (y 2))
  congr 1
  funext a; apply Fin.ext
  match a with
  | ⟨0, _⟩ => show win0_0.index t (0 : Fin 3) * 1 + 1 * (y 0).val = t.val / 8; have : (y 0).val < 1 := (y 0).isLt; omega
  | ⟨1, _⟩ => show win0_0.index t (1 : Fin 3) * 4096 + 1 * (y 1).val = (y 1).val; omega
  | ⟨2, _⟩ => show win0_0.index t (2 : Fin 3) * 384 + 1 * (y 2).val = (y 2).val; omega

/-- Two points of one batch see the same block. -/
theorem inBlock_congr (c : Dev nD) (t t' : Fin cfg0.N) (h : t.val / 8 = t'.val / 8) : inBlock m c t = inBlock m c t' := by
  rw [inBlock_eq, inBlock_eq]; exact congrArg _ (Fin.ext h)

/-- After point `n` the key scratch holds the normalised rows, and the value scratch the rows, of that point's block. -/
theorem scratch_eq (c : Dev nD) : ∀ (n : ℕ) (h : n < cfg0.N),
    (outsAt0 m c n h).2.1 = k0_pay3 (inBlock m c ⟨n, h⟩) ∧ (outsAt0 m c n h).2.2 = k0_pay4 (inBlock m c ⟨n, h⟩)
  | 0, h => by
    rw [outsAt0_A m c ⟨0, h⟩ rfl]; dsimp only
    exact ⟨scratchKeys c (grid0.coords ⟨0, h⟩) (ms0_0 ⟨0, h⟩) (hs0_0 ⟨0, h⟩) (ms0_1 ⟨0, h⟩) (hs0_1 ⟨0, h⟩) scM0_0 (Memref.isWhole_whole _) scM0_1 (Memref.isWhole_whole _) ((hcond0_0 ⟨0, h⟩).mpr rfl) (inBlock m c ⟨0, h⟩),
      scratchVals c (grid0.coords ⟨0, h⟩) (ms0_0 ⟨0, h⟩) (hs0_0 ⟨0, h⟩) (ms0_1 ⟨0, h⟩) (hs0_1 ⟨0, h⟩) scM0_0 (Memref.isWhole_whole _) scM0_1 (Memref.isWhole_whole _) ((hcond0_0 ⟨0, h⟩).mpr rfl) (inBlock m c ⟨0, h⟩)⟩
  | n + 1, h => by
    by_cases h0 : (n + 1) % 8 = 0
    · rw [outsAt0_A m c ⟨n + 1, h⟩ h0]; dsimp only
      exact ⟨scratchKeys c (grid0.coords ⟨n + 1, h⟩) (ms0_0 ⟨n + 1, h⟩) (hs0_0 ⟨n + 1, h⟩) (ms0_1 ⟨n + 1, h⟩) (hs0_1 ⟨n + 1, h⟩) scM0_0 (Memref.isWhole_whole _) scM0_1 (Memref.isWhole_whole _) ((hcond0_0 ⟨n + 1, h⟩).mpr h0) (inBlock m c ⟨n + 1, h⟩),
        scratchVals c (grid0.coords ⟨n + 1, h⟩) (ms0_0 ⟨n + 1, h⟩) (hs0_0 ⟨n + 1, h⟩) (ms0_1 ⟨n + 1, h⟩) (hs0_1 ⟨n + 1, h⟩) scM0_0 (Memref.isWhole_whole _) scM0_1 (Memref.isWhole_whole _) ((hcond0_0 ⟨n + 1, h⟩).mpr h0) (inBlock m c ⟨n + 1, h⟩)⟩
    · have ih := scratch_eq c n (Nat.lt_of_succ_lt h)
      have hb : inBlock m c ⟨n, Nat.lt_of_succ_lt h⟩ = inBlock m c ⟨n + 1, h⟩ :=
        inBlock_congr m c _ _ (by show n / 8 = (n + 1) / 8; omega)
      rw [outsAt0_B m c ⟨n + 1, h⟩ h0]; dsimp only
      unfold sout0_B_0 sout0_B_1
      rw [← hb]
      exact ih

/-- What point `t` leaves in its output block: the tile of its own block. -/
theorem out_eq (c : Dev nD) (t : Fin cfg0.N) :
    (outsAt0 m c t.val t.isLt).1
      = tile (grid0.coords t) (inBlock m c t) (k0_pay3 (inBlock m c t)) (k0_pay4 (inBlock m c t)) := by
  by_cases h0 : t.val % 8 = 0
  · rw [outsAt0_A m c t h0]; dsimp only
    exact outFirst c (grid0.coords t) (ms0_0 t) (hs0_0 t) (ms0_1 t) (hs0_1 t) scM0_0 (Memref.isWhole_whole _) scM0_1 (Memref.isWhole_whole _) ((hcond0_0 t).mpr h0) (inBlock m c t)
  · have hpos : 0 < t.val := Nat.pos_of_ne_zero fun hz => h0 (by rw [hz])
    have hlt : t.val - 1 < cfg0.N := Nat.lt_of_le_of_lt (Nat.sub_le _ _) t.isLt
    have ih := scratch_eq m c (t.val - 1) hlt
    have hb : inBlock m c ⟨t.val - 1, hlt⟩ = inBlock m c t :=
      inBlock_congr m c _ _ (by show (t.val - 1) / 8 = t.val / 8; omega)
    rw [outsAt0_B m c t h0]; dsimp only
    rw [outLater c (grid0.coords t) (ms0_0 t) (hs0_0 t) (ms0_1 t) (hs0_1 t) scM0_0 (Memref.isWhole_whole _) scM0_1 (Memref.isWhole_whole _) (fun h => h0 ((hcond0_0 t).mp h)) (inBlock m c t) _ _,
      ih.1, ih.2, hb]

end Cert.KernelIdeal.Tile

end
-- ==== Proof.AttentionSpec.lean ====
/-
  Cosine-similarity self-attention with a residual, on the extended reals: the one function both programs compute.

  The array is `x b n d`: batch `b < 4`, position `n < 4096`, feature `d < 384`. Each position's feature row is
  divided by `max (‖row‖, eps)`; the similarity of positions `n` and `m` of a batch is the inner product of their
  normalised rows. Position `n` then attends to every position `m` of its batch with weight proportional to
  `exp (similarity / temperature)`, and the result is `x + weight · (the weighted mean of the rows of x)`.

  Two spellings of the weights appear. One multiplies the similarity by a scale `s` and subtracts the constant `s`
  before exponentiating, sums the unnormalised weighted rows and the unnormalised weights, and divides once at the
  end (`scaledOut`). The other divides the similarity by the temperature, subtracts the row's largest logit, and
  normalises the weights before the weighted sum (`softmaxOut`). With `s = 1 / temperature` and every entry of `x` a
  real number the two agree, because a softmax does not change when one number is subtracted from all its logits.
-/
import Idealize.ShloMosaic.PureOps.Ideal
import Mathlib.Algebra.BigOperators.Group.Finset.Basic

noncomputable section

open scoped BigOperators

namespace Cert.CosAttn

open Idealize.ShloMosaic

/-- An array indexed by batch, position and feature. -/
abbrev Arr := Fin 4 → Fin 4096 → Fin 384 → EReal

/-- The lower bound put under a row's norm before dividing by it (the f32 word of `1e-12`). -/
def eps : EReal := Ideal.ofBits .f32 0x2B8CBCCC#32
/-- The weight of the attended term in the residual sum (the f32 word of `0.3`). -/
def resWeight : EReal := Ideal.ofBits .f32 0x3E99999A#32
/-- The temperature the similarities are divided by (the f32 word of `0.07`). -/
def temperature : EReal := Ideal.ofBits .f32 0x3D8F5C29#32

/-- The sum of squares of the feature row at `(b, n)`. -/
def sumSq (x : Arr) (b : Fin 4) (n : Fin 4096) : EReal := ∑ d : Fin 384, x b n d * x b n d
/-- The row's Euclidean norm, bounded below by `eps`. -/
def rowNorm (x : Arr) (b : Fin 4) (n : Fin 4096) : EReal := max (Ideal.sqrt (sumSq x b n)) eps
/-- The normalised row. -/
def unitRow (x : Arr) (b : Fin 4) (n : Fin 4096) (d : Fin 384) : EReal := Ideal.div (x b n d) (rowNorm x b n)
/-- The cosine similarity of positions `n` and `m` of batch `b`. -/
def cosSim (x : Arr) (b : Fin 4) (n m : Fin 4096) : EReal := ∑ d : Fin 384, unitRow x b n d * unitRow x b m d

/-! ### Scale, shift by the scale, divide once at the end -/

/-- The unnormalised weight of position `m` for position `n`: `exp (similarity · s − s)`. -/
def scaledWeight (s : EReal) (x : Arr) (b : Fin 4) (n m : Fin 4096) : EReal := Ideal.exp (cosSim x b n m * s - s)
/-- `x + resWeight · (Σₘ wₘ · x_m) / (Σₘ wₘ)` with the unnormalised weights `w`. -/
def scaledOut (s : EReal) (x : Arr) (b : Fin 4) (n : Fin 4096) (d : Fin 384) : EReal :=
  x b n d + resWeight * Ideal.div (∑ m : Fin 4096, scaledWeight s x b n m * x b m d) (∑ m : Fin 4096, scaledWeight s x b n m)

/-! ### Divide by the temperature, shift by the row's maximum, normalise, then sum -/

/-- The logit of position `m` for position `n`: similarity over temperature. -/
def logit (x : Arr) (b : Fin 4) (n m : Fin 4096) : EReal := Ideal.div (cosSim x b n m) temperature
/-- The largest logit of the row, as a fold of `max` from `⊥` (taken once more against `⊥`). -/
def rowMax (x : Arr) (b : Fin 4) (n : Fin 4096) : EReal :=
  max ⊥ ((Finset.univ : Finset (Fin 4096)).fold max ⊥ (fun m => logit x b n m))
/-- The shifted exponential of a logit. -/
def softWeight (x : Arr) (b : Fin 4) (n m : Fin 4096) : EReal := Ideal.exp (logit x b n m - rowMax x b n)
/-- `x + resWeight · Σₘ (wₘ / Σⱼ wⱼ) · x_m` with the shifted weights `w`. -/
def softmaxOut (x : Arr) (b : Fin 4) (n : Fin 4096) (d : Fin 384) : EReal :=
  x b n d + resWeight * ∑ m : Fin 4096, Ideal.div (softWeight x b n m) (∑ j : Fin 4096, softWeight x b n j) * x b m d

end Cert.CosAttn

end
-- ==== Proof.LibRowReduce.lean ====
/-
  Row reductions of a matrix and the "keepdims" column they are carried in, read at coordinates.

  A matrix of shape `[a, b]` reduced along its second axis gives one number per row. Kept as a column `[a, 1]`
  (a shape cast of the `[a]` vector) and broadcast back over the `b` columns, entry `(r, c)` of the broadcast is
  the number of row `r`. At the extended reals the sum along a row is the finite sum of the row's entries, and the
  maximum along a row is the fold of `max` over them from the accumulator's value.
-/
import Idealize.ShloMosaic.Lib.ValueLayout
import Idealize.ShloMosaic.PureOps.Ideal.Laws

noncomputable section

namespace Cert.RowReduce

open Idealize.ShloMosaic Idealize.ShloMosaic.ValueIdx

variable {α : Type}

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` columns reads, at `(i, j)`, the column at row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Along the second axis of `[a, b]`, the source index over row `r` with coordinate `k` inserted is `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

variable {φ : FTy}

/-- A sum along the rows of a matrix of extended reals, at row `r`: the finite sum of that row's entries. -/
theorem rowSum_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ) (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the rows of a matrix of extended reals, at row `r`: the fold of `max` over that row's entries
    from the accumulator's value. -/
theorem rowMax_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (fun f => Finset.fold max (Ideal.ofBits φ acc) f (Finset.univ : Finset (Fin b)))
    (funext fun k => congrArg src (lift_row h r k))

end Cert.RowReduce

end
-- ==== Proof.LibRowsDot.lean ====
/-
  A product of rows with rows read at an element, on the extended reals.

  For the dimension numbers of a matrix times the transpose of another — `[M, K]` by `[N, K]`, the left operand's
  axis 1 contracted with the right operand's axis 1, no batch axes — the operand indices at output element `(a, b)`
  and contraction coordinate `k` are `(a, k)` and `(b, k)`: row `a` of the left operand meets row `b` of the right
  one. So a product accumulated into the zero splat is, at `(a, b)`, the inner product of the two rows,
  `∑ k : Fin K, lhs (a, k) * rhs (b, k)`, and so is the host's `dot_general`.
-/
import Idealize.ShloMosaic.PureOps.Ideal.Laws
import Idealize.ShloMosaic.Lib.ValueIdx

noncomputable section

open scoped BigOperators

namespace Cert.Lib

open Idealize.ShloMosaic Idealize.ShloMosaic.ValueIdx

/-- The dimension numbers of a product of rows with rows `[M, K] × [N, K] → [M, N]`: `lhs_contracting = [1]`,
    `rhs_contracting = [1]`, each operand's axis 0 an axis of the result, no batch axes. At a printed record every
    field is `rfl`. -/
structure RowsDot {M K N : Nat} (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

variable {M K N : Nat} {d : DotDims ⟨2, ![M, K]⟩ ⟨2, ![N, K]⟩ ⟨2, ![M, N]⟩}

/-- A product of rows with rows contracts one axis. -/
theorem RowsDot.rank_contr (hd : RowsDot d) : d.contr.rank = 1 := by
  rw [d.rank_contr, hd.lc]; rfl

/-- The contracted axis has extent `K`, the length of a row. -/
theorem RowsDot.size_contr (hd : RowsDot d) : d.contr.size ⟨0, by rw [hd.rank_contr]; exact Nat.one_pos⟩ = K := by
  obtain ⟨h1, h2, h3, h4, h5, h6⟩ := hd
  obtain ⟨lc, rc, ln, rn, lb, rb, wf⟩ := d
  simp only at h1 h2 h3 h4 h5 h6
  subst h1 h2 h3 h4 h5 h6
  rfl

/-- The left operand's row is the output's row. -/
theorem RowsDot.lhs0 (hd : RowsDot d) (i : (⟨2, ![M, N]⟩ : Shape).Idx) (q : d.contr.Idx) :
    (d.lhsIdx i q 0).val = (i 0).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.lhsIdx
  rw [dif_neg (by simp), dif_pos (by simp)]
  rfl

/-- The left operand's column is the contraction coordinate. -/
theorem RowsDot.lhs1 (hd : RowsDot d) (i : (⟨2, ![M, N]⟩ : Shape).Idx) (q : d.contr.Idx) :
    (d.lhsIdx i q 1).val = (q ⟨0, by rw [hd.rank_contr]; exact Nat.one_pos⟩).val :=
  d.lhsIdx_val_of_single hd.lc i q

/-- The right operand's row is the output's column. -/
theorem RowsDot.rhs0 (hd : RowsDot d) (i : (⟨2, ![M, N]⟩ : Shape).Idx) (q : d.contr.Idx) :
    (d.rhsIdx i q 0).val = (i 1).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.rhsIdx
  rw [dif_neg (by simp), dif_pos (by simp)]
  rfl

/-- The right operand's column is the contraction coordinate. -/
theorem RowsDot.rhs1 (hd : RowsDot d) (i : (⟨2, ![M, N]⟩ : Shape).Idx) (q : d.contr.Idx) :
    (d.rhsIdx i q 1).val = (q ⟨0, by rw [hd.rank_contr]; exact Nat.one_pos⟩).val :=
  d.rhsIdx_val_of_single hd.rc i q

/-- The contraction of a product of rows with rows, re-indexed by the contracted coordinate: at output element
    `(a, b)` it is the inner product of row `a` of the left operand and row `b` of the right one,
    `∑ k : Fin K, lhs (a, k) * rhs (b, k)`. -/
theorem RowsDot.sum_contr (hd : RowsDot d) (lhs : (⟨2, ![M, K]⟩ : Shape).Idx → EReal)
    (rhs : (⟨2, ![N, K]⟩ : Shape).Idx → EReal) (a : Fin M) (b : Fin N) :
    ∑ q : d.contr.Idx, lhs (d.lhsIdx (ix2 a b) q) * rhs (d.rhsIdx (ix2 a b) q)
      = ∑ k : Fin K, lhs (ix2 a k) * rhs (ix2 b k) := by
  rw [← Equiv.sum_comp (contrEquiv1 d K hd.rank_contr hd.size_contr).symm]
  refine Finset.sum_congr rfl fun k _ => ?_
  have hk := contrEquiv1_symm_val d K hd.rank_contr hd.size_contr k
  have el : d.lhsIdx (ix2 a b) ((contrEquiv1 d K hd.rank_contr hd.size_contr).symm k) = ix2 a k :=
    funext fun x => Fin.ext (by
      match x with
      | ⟨0, _⟩ => exact hd.lhs0 _ _
      | ⟨1, _⟩ => exact (hd.lhs1 _ _).trans hk)
  have er : d.rhsIdx (ix2 a b) ((contrEquiv1 d K hd.rank_contr hd.size_contr).symm k) = ix2 b k :=
    funext fun x => Fin.ext (by
      match x with
      | ⟨0, _⟩ => exact hd.rhs0 _ _
      | ⟨1, _⟩ => exact (hd.rhs1 _ _).trans hk)
  rw [el, er]

/-- A product of rows with rows accumulated into the zero splat, at element `(a, b)`:
    `∑ k, lhs (a, k) * rhs (b, k)`. -/
theorem RowsDot.matmul_zero_apply (hd : RowsDot d) {φ₁ φ₂ : FTy} (prec : Option ContractPrecision)
    (lhs : FVec Ideal ⟨2, ![M, K]⟩ φ₁) (rhs : FVec Ideal ⟨2, ![N, K]⟩ φ₂) (a : Fin M) (b : Fin N) :
    FloatOps.matmul d prec lhs rhs (constant ⟨2, ![M, N]⟩ .f32 0x00000000#32) (ix2 a b)
      = ∑ k : Fin K, lhs (ix2 a k) * rhs (ix2 b k) :=
  (Ideal.matmul_constant_zero_apply d prec lhs rhs (ix2 a b)).trans (hd.sum_contr lhs rhs a b)

/-- The host's `dot_general` of rows with rows at element `(a, b)`: the same sum. -/
theorem RowsDot.dotGeneral_apply (hd : RowsDot d) {φ₁ φ₂ : FTy} (prec : Option ContractPrecision) (sched : HostSchedule)
    (lhs : FVec Ideal ⟨2, ![M, K]⟩ φ₁) (rhs : FVec Ideal ⟨2, ![N, K]⟩ φ₂) (a : Fin M) (b : Fin N) :
    FloatOps.dotGeneral d prec sched lhs rhs (ix2 a b) = ∑ k : Fin K, lhs (ix2 a k) * rhs (ix2 b k) :=
  (Ideal.dotGeneral_apply d prec sched lhs rhs (ix2 a b)).trans (hd.sum_contr lhs rhs a b)

end Cert.Lib

end
-- ==== Proof.LibPlainDot.lean ====
/-
  A plain matrix product read at an element, on the extended reals.

  For the dimension numbers of a plain product — `[M, K]` by `[K, N]`, the left operand's axis 1 contracted with the
  right operand's axis 0, no batch axes — the operand indices at output element `(a, b)` and contraction coordinate
  `k` are `(a, k)` and `(k, b)`. So a product accumulated into the zero splat is, at `(a, b)`, the plain sum
  `∑ k : Fin K, lhs (a, k) * rhs (k, b)`, and so is the host's `dot_general`.
-/
import Idealize.ShloMosaic.PureOps.Ideal.Laws
import Idealize.ShloMosaic.Lib.ValueIdx

noncomputable section

open scoped BigOperators

namespace Cert.Lib

open Idealize.ShloMosaic Idealize.ShloMosaic.ValueIdx

/-- The dimension numbers of a plain product `[M, K] × [K, N] → [M, N]`: `lhs_contracting = [1]`,
    `rhs_contracting = [0]`, the other axes the result's, no batch axes. At a printed record every field is `rfl`. -/
structure PlainDot {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {M K N : Nat} {d : DotDims ⟨2, ![M, K]⟩ ⟨2, ![K, N]⟩ ⟨2, ![M, N]⟩}

/-- A plain product contracts one axis. -/
theorem PlainDot.rank_contr (hd : PlainDot d) : d.contr.rank = 1 := by
  rw [d.rank_contr, hd.lc]; rfl

/-- The contracted axis has extent `K`. -/
theorem PlainDot.size_contr (hd : PlainDot d) : d.contr.size ⟨0, by rw [hd.rank_contr]; exact Nat.one_pos⟩ = K := by
  obtain ⟨h1, h2, h3, h4, h5, h6⟩ := hd
  obtain ⟨lc, rc, ln, rn, lb, rb, wf⟩ := d
  simp only at h1 h2 h3 h4 h5 h6
  subst h1 h2 h3 h4 h5 h6
  rfl

/-- The left operand's row is the output's row. -/
theorem PlainDot.lhs0 (hd : PlainDot d) (i : (⟨2, ![M, N]⟩ : Shape).Idx) (q : d.contr.Idx) :
    (d.lhsIdx i q 0).val = (i 0).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.lhsIdx
  rw [dif_neg (by simp), dif_pos (by simp)]
  rfl

/-- The left operand's column is the contraction coordinate. -/
theorem PlainDot.lhs1 (hd : PlainDot d) (i : (⟨2, ![M, N]⟩ : Shape).Idx) (q : d.contr.Idx) :
    (d.lhsIdx i q 1).val = (q ⟨0, by rw [hd.rank_contr]; exact Nat.one_pos⟩).val :=
  d.lhsIdx_val_of_single hd.lc i q

/-- The right operand's row is the contraction coordinate. -/
theorem PlainDot.rhs0 (hd : PlainDot d) (i : (⟨2, ![M, N]⟩ : Shape).Idx) (q : d.contr.Idx) :
    (d.rhsIdx i q 0).val = (q ⟨0, by rw [hd.rank_contr]; exact Nat.one_pos⟩).val :=
  d.rhsIdx_val_of_single hd.rc i q

/-- The right operand's column is the output's column. -/
theorem PlainDot.rhs1 (hd : PlainDot d) (i : (⟨2, ![M, N]⟩ : Shape).Idx) (q : d.contr.Idx) :
    (d.rhsIdx i q 1).val = (i 1).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.rhsIdx
  rw [dif_neg (by simp), dif_pos (by simp)]
  rfl

/-- The contraction of a plain product, re-indexed by the contracted coordinate: at output element `(a, b)` it is
    `∑ k : Fin K, lhs (a, k) * rhs (k, b)`. -/
theorem PlainDot.sum_contr (hd : PlainDot d) (lhs : (⟨2, ![M, K]⟩ : Shape).Idx → EReal)
    (rhs : (⟨2, ![K, N]⟩ : Shape).Idx → EReal) (a : Fin M) (b : Fin N) :
    ∑ q : d.contr.Idx, lhs (d.lhsIdx (ix2 a b) q) * rhs (d.rhsIdx (ix2 a b) q)
      = ∑ k : Fin K, lhs (ix2 a k) * rhs (ix2 k b) := by
  rw [← Equiv.sum_comp (contrEquiv1 d K hd.rank_contr hd.size_contr).symm]
  refine Finset.sum_congr rfl fun k _ => ?_
  have hk := contrEquiv1_symm_val d K hd.rank_contr hd.size_contr k
  have el : d.lhsIdx (ix2 a b) ((contrEquiv1 d K hd.rank_contr hd.size_contr).symm k) = ix2 a k :=
    funext fun x => Fin.ext (by
      match x with
      | ⟨0, _⟩ => exact hd.lhs0 _ _
      | ⟨1, _⟩ => exact (hd.lhs1 _ _).trans hk)
  have er : d.rhsIdx (ix2 a b) ((contrEquiv1 d K hd.rank_contr hd.size_contr).symm k) = ix2 k b :=
    funext fun x => Fin.ext (by
      match x with
      | ⟨0, _⟩ => exact (hd.rhs0 _ _).trans hk
      | ⟨1, _⟩ => exact hd.rhs1 _ _)
  rw [el, er]

/-- A plain product accumulated into the zero splat, at element `(a, b)`: `∑ k, lhs (a, k) * rhs (k, b)`. -/
theorem PlainDot.matmul_zero_apply (hd : PlainDot d) {φ₁ φ₂ : FTy} (prec : Option ContractPrecision)
    (lhs : FVec Ideal ⟨2, ![M, K]⟩ φ₁) (rhs : FVec Ideal ⟨2, ![K, N]⟩ φ₂) (a : Fin M) (b : Fin N) :
    FloatOps.matmul d prec lhs rhs (constant ⟨2, ![M, N]⟩ .f32 0x00000000#32) (ix2 a b)
      = ∑ k : Fin K, lhs (ix2 a k) * rhs (ix2 k b) :=
  (Ideal.matmul_constant_zero_apply d prec lhs rhs (ix2 a b)).trans (hd.sum_contr lhs rhs a b)

/-- The host's plain `dot_general` at element `(a, b)`: the same sum. -/
theorem PlainDot.dotGeneral_apply (hd : PlainDot d) {φ₁ φ₂ : FTy} (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) :=
  (Ideal.dotGeneral_apply d prec sched lhs rhs (ix2 a b)).trans (hd.sum_contr lhs rhs a b)

end Cert.Lib

end
-- ==== Proof.LibMaskSum.lean ====
/-
  A 0/1-masked contraction over the extended reals is a sum over the mask's support.

  On the extended reals `x * 0 = 0` and `x * 1 = x` for EVERY `x`, the infinities included (the extended reals are a
  commutative monoid with zero), so a mask factor `if g i = k then 1 else 0` inside a sum keeps exactly the terms with
  `g i = k`, with no finiteness side condition. When the index set is `H` consecutive blocks of `B` and `g` is
  "which block" (`c / B`), the support of block `k` is the `B` positions `B * k + b`, and the sum over it is a sum
  over `Fin B`. The one-hot expansion `∑ h, t h * [q = h] = t q` is the same fact read the other way.
-/
import Mathlib.Data.EReal.Inv
import Mathlib.Algebra.BigOperators.Group.Finset.Basic
import Mathlib.Algebra.BigOperators.Group.Finset.Piecewise

open scoped BigOperators

namespace Cert.Lib

/-- A 0/1 mask factor on the extended reals: `(if c then 1 else 0) * a` is `a` where the condition holds and `0`
    where it does not, for every `a` (infinite ones too). -/
theorem mask_mul (c : Prop) [Decidable c] (a : EReal) : (if c then (1 : EReal) else 0) * a = if c then a else 0 := by
  split_ifs <;> simp

/-- The same with the mask on the right. -/
theorem mul_mask (c : Prop) [Decidable c] (a : EReal) : a * (if c then (1 : EReal) else 0) = if c then a else 0 := by
  split_ifs <;> simp

/-- A masked term of a contraction: `p * ((if c then 1 else 0) * a)` is `p * a` where the condition holds and `0`
    where it does not, for every `p`, `a` on the extended reals. -/
theorem mul_mask_mul (c : Prop) [Decidable c] (p a : EReal) :
    p * ((if c then (1 : EReal) else 0) * a) = if c then p * a else 0 := by
  split_ifs <;> simp

/-- A 0/1-masked contraction is the sum over the mask's support: for finite `ι`, any `g : ι → κ`, `k : κ` and any
    `p a : ι → EReal`, `∑ i, p i * ((if g i = k then 1 else 0) * a i) = ∑ i ∈ univ.filter (g · = k), p i * a i`. -/
theorem sum_mul_mask_mul {ι κ : Type*} [Fintype ι] [DecidableEq κ] (g : ι → κ) (k : κ) (p a : ι → EReal) :
    ∑ i, p i * ((if g i = k then (1 : EReal) else 0) * a i)
      = ∑ i ∈ Finset.univ.filter (fun i => g i = k), p i * a i := by
  rw [Finset.sum_filter]
  exact Finset.sum_congr rfl fun i _ => mul_mask_mul _ _ _

/-- The same for a mask stated by any decidable predicate `q` on the index. -/
theorem sum_mul_maskP_mul {ι : Type*} [Fintype ι] (q : ι → Prop) [DecidablePred q] (p a : ι → EReal) :
    ∑ i, p i * ((if q i then (1 : EReal) else 0) * a i) = ∑ i ∈ Finset.univ.filter q, p i * a i := by
  rw [Finset.sum_filter]
  exact Finset.sum_congr rfl fun i _ => mul_mask_mul _ _ _

/-- A masked sum with the mask as the only other factor: `∑ i, (if q i then 1 else 0) * a i` is the sum of `a` over
    the indices where `q` holds. -/
theorem sum_maskP_mul {ι : Type*} [Fintype ι] (q : ι → Prop) [DecidablePred q] (a : ι → EReal) :
    ∑ i, (if q i then (1 : EReal) else 0) * a i = ∑ i ∈ Finset.univ.filter q, a i := by
  rw [Finset.sum_filter]
  exact Finset.sum_congr rfl fun i _ => mask_mul _ _

/-- Position `B * k + b` of block `k < H` at offset `b < B` lies below `H * B`. -/
theorem block_pos_lt {n H B : Nat} (hn : n = H * B) (k : Fin H) (b : Fin B) : B * k.val + b.val < n := by
  subst hn
  calc B * k.val + b.val < B * k.val + B := Nat.add_lt_add_left b.isLt _
    _ = B * (k.val + 1) := (Nat.mul_succ _ _).symm
    _ ≤ B * H := Nat.mul_le_mul_left B k.isLt
    _ = H * B := Nat.mul_comm _ _

/-- The sum over block `k` of an index set of `H` consecutive blocks of `B`: the indices `c : Fin n`
    (`n = H * B`) with `c / B = k` are the `B` positions `B * k + b`, so the filtered sum is a sum over `Fin B`.
    For any additive commutative monoid. -/
theorem sum_filter_block {α : Type*} [AddCommMonoid α] {n H B : Nat} (hn : n = H * B) (k : Fin H) (f : Fin n → α) :
    ∑ c ∈ Finset.univ.filter (fun c : Fin n => c.val / B = k.val), f c
      = ∑ b : Fin B, f ⟨B * k.val + b.val, block_pos_lt hn k b⟩ := by
  symm
  refine Finset.sum_bij (fun b _ => (⟨B * k.val + b.val, block_pos_lt hn k b⟩ : Fin n)) ?_ ?_ ?_ ?_
  · intro b _
    have hB : 0 < B := Nat.lt_of_le_of_lt (Nat.zero_le _) b.isLt
    simp only [Finset.mem_filter, Finset.mem_univ, true_and]
    rw [Nat.mul_add_div hB, Nat.div_eq_of_lt b.isLt, Nat.add_zero]
  · intro b₁ _ b₂ _ h
    have := congrArg Fin.val h
    simp only at this
    exact Fin.ext (by omega)
  · intro c hc
    simp only [Finset.mem_filter, Finset.mem_univ, true_and] at hc
    have hB : 0 < B := Nat.pos_of_ne_zero (by
      rintro rfl
      have h1 : c.val < H * 0 := lt_of_lt_of_eq c.isLt hn
      exact absurd h1 (by simp))
    refine ⟨⟨c.val % B, Nat.mod_lt _ hB⟩, Finset.mem_univ _, ?_⟩
    apply Fin.ext
    show B * k.val + c.val % B = c.val
    rw [← hc]; exact Nat.div_add_mod _ _
  · intro b _; rfl

/-- The block form of the masked contraction: over `Fin n` with `n = H * B` and the mask "`c` lies in block `k`"
    (`c / B = k`), `∑ c, p c * ((if c / B = k then 1 else 0) * a c) = ∑ b : Fin B, p (B·k + b) * a (B·k + b)`. -/
theorem sum_mul_blockmask_mul {n H B : Nat} (hn : n = H * B) (k : Fin H) (p a : Fin n → EReal) :
    ∑ c : Fin n, p c * ((if c.val / B = k.val then (1 : EReal) else 0) * a c)
      = ∑ b : Fin B, p ⟨B * k.val + b.val, block_pos_lt hn k b⟩ * a ⟨B * k.val + b.val, block_pos_lt hn k b⟩ := by
  rw [sum_mul_maskP_mul (fun c : Fin n => c.val / B = k.val) p a]
  exact sum_filter_block hn k fun c => p c * a c

/-- The one-hot expansion: `∑ h : Fin H, t h * (if j = h then 1 else 0) = t j` on the extended reals. -/
theorem sum_mul_onehot {H : Nat} (t : Fin H → EReal) (j : Fin H) :
    ∑ h : Fin H, t h * (if j = h then (1 : EReal) else 0) = t j := by
  simp only [mul_mask]
  rw [Finset.sum_ite_eq Finset.univ j t, if_pos (Finset.mem_univ _)]

/-- The one-hot expansion with the selected position a natural number `q < H` compared with the summation index's
    value: `∑ h : Fin H, t h * (if q = h then 1 else 0) = t q`. With `q = c / B` for `c < H * B` this is the block
    number of `c`. -/
theorem sum_mul_onehot_val {H : Nat} (t : Fin H → EReal) (q : Nat) (hq : q < H) :
    ∑ h : Fin H, t h * (if q = h.val then (1 : EReal) else 0) = t ⟨q, hq⟩ := by
  rw [← sum_mul_onehot t ⟨q, hq⟩]
  refine Finset.sum_congr rfl fun h _ => ?_
  have : (q = h.val) ↔ ((⟨q, hq⟩ : Fin H) = h) := ⟨fun e => Fin.ext e, fun e => congrArg Fin.val e⟩
  simp only [this]

/-- The block number of a position below `H * B` is below `H`. -/
theorem block_lt {n H B : Nat} (hn : n = H * B) (c : Fin n) : c.val / B < H := by
  have hc : c.val < H * B := lt_of_lt_of_eq c.isLt hn
  exact Nat.div_lt_of_lt_mul (lt_of_lt_of_eq hc (Nat.mul_comm H B))

/-- The one-hot expansion at a block number: for `c : Fin n`, `n = H * B`,
    `∑ h : Fin H, t h * (if c / B = h then 1 else 0) = t (c / B)`. -/
theorem sum_mul_onehot_block {n H B : Nat} (hn : n = H * B) (t : Fin H → EReal) (c : Fin n) :
    ∑ h : Fin H, t h * (if c.val / B = h.val then (1 : EReal) else 0) = t ⟨c.val / B, block_lt hn c⟩ :=
  sum_mul_onehot_val t _ _

end Cert.Lib
-- ==== Proof.LibBlockSum.lean ====
/-
  A sum over `H` consecutive blocks of `B` positions is the sum over all `H * B` positions; and a small natural
  number's 32-bit word is the word whose signed reading is that number.
-/
import proofs.«408302_j88141318848696_3_alg».proof.Proof.LibMaskSum
import Idealize.ShloMosaic.Lib.StableHlo.Predicate
import Mathlib.Algebra.BigOperators.Fin

open scoped BigOperators

namespace Cert.Lib

open Idealize.ShloMosaic

/-- Summing block by block: over `Fin n` with `n = H * B`, the double sum over the block `k` and the offset `b` of
    `f (B * k + b)` is the sum of `f` over every position. For any additive commutative monoid. -/
theorem sum_blocks {α : Type*} [AddCommMonoid α] {n H B : Nat} (hn : n = H * B) (f : Fin n → α) :
    ∑ k : Fin H, ∑ b : Fin B, f ⟨B * k.val + b.val, block_pos_lt hn k b⟩ = ∑ c : Fin n, f c := by
  subst hn
  rw [← Fintype.sum_prod_type (f := fun p : Fin H × Fin B => f ⟨B * p.1.val + p.2.val, block_pos_lt rfl p.1 p.2⟩)]
  refine Fintype.sum_equiv finProdFinEquiv _ _ fun p => congrArg f (Fin.ext ?_)
  show B * p.1.val + p.2.val = (finProdFinEquiv p).val
  rw [finProdFinEquiv_apply_val]
  exact Nat.add_comm _ _

/-- A 32-bit word is the word of a natural number `g < 2 ^ 31` exactly when its signed reading is `g`. -/
theorem ofNat_eq_iff_toInt (g : Nat) (hg : g < 2 ^ 31) (w : BitVec 32) :
    BitVec.ofNat 32 g = w ↔ w.toInt = (g : Int) := by
  constructor
  · rintro rfl
    exact StableHlo.Predicate.toInt_ofNat_small g hg
  · intro h
    apply BitVec.eq_of_toInt_eq
    rw [h, StableHlo.Predicate.toInt_ofNat_small g hg]

end Cert.Lib
-- ==== Proof.KernelValue.lean ====
/-
  The attention kernel's tile, read at an element of the extended reals.

  With the batch's block `x0` holding batch `b` of an array `x`, the arrays the first point of a batch stores are the
  normalised rows and the rows of that batch (`keys_apply`, `vals_apply`), the query rows of tile `q` are rows
  `512 q + r` (`queryRow_apply`), and a quarter of a scratch array is 1024 consecutive rows of it (`quarter_apply`).
  Each quarter contributes, to row `r` of the tile, the sum over its 1024 keys of `exp (similarity · s − s)` (to the
  denominator) and of that weight times the key's row (to the numerator), `s` the scale the kernel multiplies and
  shifts by; the four contributions are added first to last onto zero. Addition of extended reals is commutative
  and associative, so the four partial sums are the sum over all 4096 keys, and the tile's element is the
  specification's `scaledOut` (`tile_apply`).
-/
import proofs.«408302_j88141318848696_3_alg».proof.Proof.KernelTile
import proofs.«408302_j88141318848696_3_alg».proof.Proof.AttentionSpec
import proofs.«408302_j88141318848696_3_alg».proof.Proof.LibRowReduce
import proofs.«408302_j88141318848696_3_alg».proof.Proof.LibRowsDot
import proofs.«408302_j88141318848696_3_alg».proof.Proof.LibPlainDot
import proofs.«408302_j88141318848696_3_alg».proof.Proof.LibBlockSum
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin

set_option maxRecDepth 16384

noncomputable section

open scoped BigOperators

namespace Cert.KernelIdeal.Tile

open Idealize.ShloMosaic Idealize.ShloMosaic.TcCoe Idealize.ShloMosaic.ValueIdx Idealize.SL.Sem
open Cert.KernelIdeal Cert.KernelIdeal.Gen Cert.CosAttn Cert.RowReduce Cert.Lib

/-- The scale the kernel multiplies the similarities by and shifts them by: its named constant, at the extended reals. -/
abbrev scale : EReal := Named.named (F := Ideal) Cert.KernelIdeal.κ "inv_temperature" (φ := .f32) 0x41649249#32

/-! ### Layout -/

/-- Dropping the unit batch axis of a `[1, 4096, 384]` block. -/
theorem rows_apply (x0 : Vec Ideal S1x4096x384 .f32) (n : Fin 4096) (d : Fin 384) :
    k0_pay2 (F := Ideal) x0 (ix2 n d) = x0 (ix3 (0 : Fin 1) n d) := by
  unfold k0_pay2
  exact shapeCast_apply x0 _ (ix2 n d) (ix3 (0 : Fin 1) n d) (by
    rw [Shape.rowMajor_val_three, Shape.rowMajor_val_two]
    show (0 * 4096 + n.val) * 384 + d.val = n.val * 384 + d.val
    omega)

/-- Dropping the unit batch axis of a `[1, 512, 384]` block. -/
theorem queryRows_apply (q0 : Vec Ideal S1x512x384 .f32) (r : Fin 512) (d : Fin 384) :
    k0_pay5 (F := Ideal) q0 (ix2 r d) = q0 (ix3 (0 : Fin 1) r d) := by
  unfold k0_pay5
  exact shapeCast_apply q0 _ (ix2 r d) (ix3 (0 : Fin 1) r d) (by
    rw [Shape.rowMajor_val_three, Shape.rowMajor_val_two]
    show (0 * 512 + r.val) * 384 + d.val = r.val * 384 + d.val
    omega)

/-- A quarter of a `[4096, 384]` array starting at row `o`: row `j` of the quarter is row `o + j` of the array. -/
theorem quarter_apply (o : Nat) (h : ∀ a, (![o, 0] : Fin 2 → Nat) a + S1024x384.size a ≤ S4096x384.size a)
    (xs : Vec Ideal S4096x384 .bf16) (j : Fin 1024) (d : Fin 384) (ho : o + j.val < 4096) :
    quarter o h xs (ix2 j d) = xs (ix2 (⟨o + j.val, ho⟩ : Fin 4096) d) := by
  show xs _ = xs _
  congr 1
  funext a; apply Fin.ext
  match a with
  | ⟨0, _⟩ => show o + 1 * j.val = o + j.val; omega
  | ⟨1, _⟩ => show 0 + 1 * d.val = d.val; omega

/-- The query rows of grid point `i`: row `r` of the tile is row `512 · i₁ + r` of the block. -/
theorem queries_apply (i : grid0.Coords) (q : Nat) (hq : (i 1).val = q) (hq8 : q < 8) (x0 : Vec Ideal S1x4096x384 .f32)
    (r : Fin 512) (d : Fin 384) (hn : 512 * q + r.val < 4096) :
    queries i x0 (ix3 (0 : Fin 1) r d) = x0 (ix3 (0 : Fin 1) (⟨512 * q + r.val, hn⟩ : Fin 4096) d) := by
  show x0 _ = x0 _
  congr 1
  funext a; apply Fin.ext
  have hoff : (k0_off1 i (1 : Fin 3)) = 512 * q := by
    show (Scalar.indexCast (Scalar.muli (BitVec.ofNat 32 (i 1).val) 512#32)).toNat = 512 * q
    rw [hq]
    interval_cases q <;> rfl
  match a with
  | ⟨0, _⟩ => show 0 + 1 * 0 = 0; rfl
  | ⟨1, _⟩ => show k0_off1 i (1 : Fin 3) + 1 * r.val = 512 * q + r.val; rw [hoff]; omega
  | ⟨2, _⟩ => show 0 + 1 * d.val = d.val; omega

/-! ### Rows divided by their norms -/

/-- A matrix's rows divided by `max (their norm, eps)`, at an element: the body's spelling — squares summed along the
    row, kept as a column, square root, bounded below, broadcast back, divided — is the specification's. -/
theorem normalise_apply {a : ℕ} (v : FVec Ideal ⟨2, ![a, 384]⟩ .f32)
    (hr : (⟨2, ![a, 384]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, 384]⟩)
    (r : Fin a) (d : Fin 384) :
    divf v (broadcastTo ⟨2, ![a, 384]⟩
      (maximumf (sqrt (shapeCast ⟨2, ![a, 1]⟩ (multiReduction .add [1] ⟨1, ![a]⟩ (mulf v v) 0x00000000#32 hr hφ hacc) hc))
        (broadcast ⟨2, ![a, 1]⟩ (Scalar.ofBits (F := Ideal) .f32 0x2B8CBCCC#32))) hb) (ix2 r d)
      = Ideal.div (v (ix2 r d)) (max (Ideal.sqrt (∑ k : Fin 384, v (ix2 r k) * v (ix2 r k))) eps) := by
  rw [divf_apply, broadcastTo_a1_ab_apply, maximumf_apply, broadcast_apply]
  show Ideal.div _ (max (Ideal.sqrt (shapeCast ⟨2, ![a, 1]⟩ _ hc (ix2 r (0 : Fin 1)))) _) = _
  rw [shapeCast_a_a1_apply, rowSum_apply]
  rfl

variable (x : Arr) (b : Fin 4)

/-- The key scratch a first point stores: the normalised rows of batch `b`. -/
theorem keys_apply (x0 : Vec Ideal S1x4096x384 .f32) (hx0 : ∀ n d, x0 (ix3 (0 : Fin 1) n d) = x b n d)
    (n : Fin 4096) (d : Fin 384) : k0_pay3 (F := Ideal) x0 (ix2 n d) = unitRow x b n d := by
  have hrow : ∀ (n : Fin 4096) (d : Fin 384), k0_pay2 (F := Ideal) x0 (ix2 n d) = x b n d :=
    fun n d => (rows_apply x0 n d).trans (hx0 n d)
  unfold k0_pay3
  try dsimp only
  rw [shapeCast_self]
  refine (normalise_apply (k0_pay2 (F := Ideal) x0) _ _ _ _ _ n d).trans ?_
  unfold unitRow rowNorm sumSq
  simp only [hrow]

/-- The value scratch a first point stores: the rows of batch `b`. -/
theorem vals_apply (x0 : Vec Ideal S1x4096x384 .f32) (hx0 : ∀ n d, x0 (ix3 (0 : Fin 1) n d) = x b n d)
    (n : Fin 4096) (d : Fin 384) : k0_pay4 (F := Ideal) x0 (ix2 n d) = x b n d := by
  unfold k0_pay4
  try dsimp only
  rw [shapeCast_self]
  exact (rows_apply x0 n d).trans (hx0 n d)

/-- The normalised query rows of a tile whose row `r` is row `f r` of batch `b`. -/
theorem queryKeys_apply (q0 : Vec Ideal S1x512x384 .f32) (f : Fin 512 → Fin 4096)
    (hq0 : ∀ r d, q0 (ix3 (0 : Fin 1) r d) = x b (f r) d) (r : Fin 512) (d : Fin 384) :
    k0_pay6 (F := Ideal) q0 (ix2 r d) = unitRow x b (f r) d := by
  have hrow : ∀ (r : Fin 512) (d : Fin 384), k0_pay5 (F := Ideal) q0 (ix2 r d) = x b (f r) d :=
    fun r d => (queryRows_apply q0 r d).trans (hq0 r d)
  unfold k0_pay6
  try dsimp only
  refine (normalise_apply (k0_pay5 (F := Ideal) q0) _ _ _ _ _ r d).trans ?_
  unfold unitRow rowNorm sumSq
  simp only [hrow]

/-! ### One quarter of the keys -/

/-- The exponentiated, scaled and shifted similarities of 512 query rows with 1024 key rows. -/
def expScores (a : FVec Ideal S512x384 .bf16) (k : FVec Ideal S1024x384 .bf16) : FVec Ideal S512x1024 .f32 :=
  exp (subf (mulf (matmul dot_S512x384_S1024x384_S512x1024_1_1_0_0_n_n none a k (constant S512x1024 .f32 0x00000000#32))
    (broadcast S512x1024 scale)) (broadcast S512x1024 scale))

theorem expScores_apply (a : FVec Ideal S512x384 .bf16) (k : FVec Ideal S1024x384 .bf16) (r : Fin 512) (j : Fin 1024) :
    expScores a k (ix2 r j) = Ideal.exp ((∑ d : Fin 384, a (ix2 r d) * k (ix2 j d)) * scale - scale) := by
  unfold expScores
  exact congrArg (fun t => Ideal.exp (t * scale - scale))
    (RowsDot.matmul_zero_apply (d := dot_S512x384_S1024x384_S512x1024_1_1_0_0_n_n) ⟨rfl, rfl, rfl, rfl, rfl, rfl⟩ none a k r j)

theorem pay7_eq (q0 : Vec Ideal S1x512x384 .f32) (k : FVec Ideal S1024x384 .bf16) :
    k0_pay7 (F := Ideal) q0 k = expScores (k0_pay6 (F := Ideal) q0) k := rfl
theorem pay10_eq (a : FVec Ideal S512x384 .bf16) (k : FVec Ideal S1024x384 .bf16) : k0_pay10 (F := Ideal) a k = expScores a k := rfl
theorem pay11_eq (a : FVec Ideal S512x384 .bf16) (k : FVec Ideal S1024x384 .bf16) : k0_pay11 (F := Ideal) a k = expScores a k := rfl

/-- The row sums of a `[512, 1024]` matrix, kept as a column, at row `r`. -/
theorem rowSumCol_apply (e : FVec Ideal S512x1024 .f32) (hφ : FKind.Formats .f32)
    (hacc : (0x00000000#32 : BitVec 32) = FKind.add.neutral .f32 hφ) (r : Fin 512) :
    shapeCast S512x1 (multiReduction .add [1] S512 e 0x00000000#32 reduces_S512x1024_S512 hφ hacc) shapeCasts_S512_S512x1 (ix2 r (0 : Fin 1))
      = ∑ j : Fin 1024, e (ix2 r j) := by
  rw [shapeCast_a_a1_apply, rowSum_apply]

/-- The weights of a quarter times its value rows, summed over the quarter's keys. -/
theorem mix_apply (e : FVec Ideal S512x1024 .f32) (v : FVec Ideal S1024x384 .bf16) (r : Fin 512) (d : Fin 384) :
    matmul dot_S512x1024_S1024x384_S512x384_1_0_0_1_n_n none (truncf .bf16 e bitsLt_bf16_f32) v (constant S512x384 .f32 0x00000000#32) (ix2 r d)
      = ∑ j : Fin 1024, e (ix2 r j) * v (ix2 j d) := by
  exact PlainDot.matmul_zero_apply (d := dot_S512x1024_S1024x384_S512x384_1_0_0_1_n_n) ⟨rfl, rfl, rfl, rfl, rfl, rfl⟩ none
    (truncf .bf16 e bitsLt_bf16_f32) v r d

/-! ### The four quarters, added first to last -/

section terms

variable (a : FVec Ideal S512x384 .bf16)

/-- The denominator after the first quarter. -/
theorem den_first (q0 : Vec Ideal S1x512x384 .f32) (K0 : FVec Ideal S1024x384 .bf16) (r : Fin 512) :
    k0_pay8 (F := Ideal) q0 K0 (ix2 r (0 : Fin 1))
      = Ideal.ofBits .f32 0x00000000#32 + ∑ j : Fin 1024, expScores (k0_pay6 (F := Ideal) q0) K0 (ix2 r j) := by
  unfold k0_pay8
  exact congrArg (Ideal.ofBits .f32 0x00000000#32 + ·) (rowSumCol_apply (k0_pay7 (F := Ideal) q0 K0) _ _ r)

/-- The denominator after the second and third quarters. -/
theorem den_mid (v33 : FVec Ideal S512x1 .f32) (K1 K2 : FVec Ideal S1024x384 .bf16) (r : Fin 512) :
    k0_pay12 (F := Ideal) a v33 K1 K2 (ix2 r (0 : Fin 1))
      = (v33 (ix2 r (0 : Fin 1)) + ∑ j : Fin 1024, expScores a K1 (ix2 r j)) + ∑ j : Fin 1024, expScores a K2 (ix2 r j) := by
  unfold k0_pay12
  exact congrArg₂ (· + ·) (congrArg (v33 (ix2 r (0 : Fin 1)) + ·) (rowSumCol_apply (k0_pay10 (F := Ideal) a K1) _ _ r))
    (rowSumCol_apply (k0_pay11 (F := Ideal) a K2) _ _ r)

/-- The numerator after the first quarter. -/
theorem num_first (q0 : Vec Ideal S1x512x384 .f32) (K0 V0 : FVec Ideal S1024x384 .bf16) (r : Fin 512) (d : Fin 384) :
    k0_pay9 (F := Ideal) q0 K0 V0 (ix2 r d)
      = Ideal.ofBits .f32 0x00000000#32 + ∑ j : Fin 1024, expScores (k0_pay6 (F := Ideal) q0) K0 (ix2 r j) * V0 (ix2 j d) := by
  unfold k0_pay9
  exact congrArg (Ideal.ofBits .f32 0x00000000#32 + ·) (mix_apply (k0_pay7 (F := Ideal) q0 K0) V0 r d)

/-- The numerator after the second and third quarters. -/
theorem num_mid (v36 : FVec Ideal S512x384 .f32) (K1 V1 K2 V2 : FVec Ideal S1024x384 .bf16) (r : Fin 512) (d : Fin 384) :
    k0_pay13 (F := Ideal) a v36 K1 V1 K2 V2 (ix2 r d)
      = (v36 (ix2 r d) + ∑ j : Fin 1024, expScores a K1 (ix2 r j) * V1 (ix2 j d))
          + ∑ j : Fin 1024, expScores a K2 (ix2 r j) * V2 (ix2 j d) := by
  unfold k0_pay13
  exact congrArg₂ (· + ·) (congrArg (v36 (ix2 r d) + ·) (mix_apply (k0_pay10 (F := Ideal) a K1) V1 r d))
    (mix_apply (k0_pay11 (F := Ideal) a K2) V2 r d)

/-- The output element: the query row plus the residual weight times numerator over denominator, both completed by
    the fourth quarter. -/
theorem out_last (v7 : FVec Ideal S512x384 .f32) (v69 : FVec Ideal S512x1 .f32) (v72 : FVec Ideal S512x384 .f32)
    (K3 V3 : FVec Ideal S1024x384 .bf16) (r : Fin 512) (d : Fin 384) :
    k0_pay1 (F := Ideal) v7 a v69 v72 K3 V3 (ix3 (0 : Fin 1) r d)
      = v7 (ix2 r d) + resWeight * Ideal.div (v72 (ix2 r d) + ∑ j : Fin 1024, expScores a K3 (ix2 r j) * V3 (ix2 j d))
          (v69 (ix2 r (0 : Fin 1)) + ∑ j : Fin 1024, expScores a K3 (ix2 r j)) := by
  unfold k0_pay1
  try dsimp only
  refine (shapeCast_apply _ _ (ix3 (0 : Fin 1) r d) (ix2 r d) (by
    rw [Shape.rowMajor_val_three, Shape.rowMajor_val_two]
    show r.val * 384 + d.val = (0 * 512 + r.val) * 384 + d.val
    omega)).trans ?_
  show v7 (ix2 r d) + Ideal.ofBits .f32 0x3E99999A#32 * Ideal.div
      (v72 (ix2 r d) + matmul dot_S512x1024_S1024x384_S512x384_1_0_0_1_n_n none (truncf .bf16 (expScores a K3) bitsLt_bf16_f32) V3 (constant S512x384 .f32 0x00000000#32) (ix2 r d))
      (broadcastTo S512x384 (addf v69 (shapeCast S512x1 (multiReduction .add [1] S512 (expScores a K3) 0x00000000#32 reduces_S512x1024_S512 (.inl rfl) rfl) shapeCasts_S512_S512x1)) broadcasts_S512x1_S512x384 (ix2 r d)) = _
  rw [mix_apply, broadcastTo_a1_ab_apply, addf_apply]
  exact congrArg (fun t => v7 (ix2 r d) + resWeight * Ideal.div
      (v72 (ix2 r d) + ∑ j : Fin 1024, expScores a K3 (ix2 r j) * V3 (ix2 j d)) (v69 (ix2 r (0 : Fin 1)) + t))
    (rowSumCol_apply (expScores a K3) _ _ r)

end terms

/-- Four sums over consecutive quarters of 4096 positions, added first to last onto zero, are the sum over all. -/
theorem sum_quarters {α : Type*} [AddCommMonoid α] (g : Fin 4096 → α)
    (h0 : ∀ j : Fin 1024, 0 + j.val < 4096) (h1 : ∀ j : Fin 1024, 1024 + j.val < 4096)
    (h2 : ∀ j : Fin 1024, 2048 + j.val < 4096) (h3 : ∀ j : Fin 1024, 3072 + j.val < 4096) :
    (((0 + ∑ j : Fin 1024, g ⟨0 + j.val, h0 j⟩) + ∑ j : Fin 1024, g ⟨1024 + j.val, h1 j⟩)
        + ∑ j : Fin 1024, g ⟨2048 + j.val, h2 j⟩) + ∑ j : Fin 1024, g ⟨3072 + j.val, h3 j⟩ = ∑ m : Fin 4096, g m := by
  rw [← sum_blocks (n := 4096) (H := 4) (B := 1024) rfl g, Fin.sum_univ_four, zero_add]
  rfl

/-! ### The tile's element -/

/-- The position, within its batch, of row `r` of query tile `q`. -/
def tileRow (q : Nat) (hq8 : q < 8) (r : Fin 512) : Fin 4096 := ⟨512 * q + r.val, by have := r.isLt; omega⟩

/-- Row `r`, feature `d` of the tile that grid point `i` (query tile `q`) writes, when the block holds batch `b` of `x`
    and the scratch arrays hold that batch's normalised rows and rows: the specification's value at position
    `512 q + r` of batch `b`, with the kernel's scale. -/
theorem tile_apply (i : grid0.Coords) (q : Nat) (hq : (i 1).val = q) (hq8 : q < 8)
    (x0 : Vec Ideal S1x4096x384 .f32) (hx0 : ∀ n d, x0 (ix3 (0 : Fin 1) n d) = x b n d) (r : Fin 512) (d : Fin 384) :
    tile (F := Ideal) i x0 (k0_pay3 x0) (k0_pay4 x0) (ix3 (0 : Fin 1) r d) = scaledOut scale x b (tileRow q hq8 r) d := by
  have hq0 : ∀ (r : Fin 512) (d : Fin 384), queries i x0 (ix3 (0 : Fin 1) r d) = x b (tileRow q hq8 r) d :=
    fun r d => (queries_apply i q hq hq8 x0 r d (tileRow q hq8 r).isLt).trans (hx0 _ d)
  have hW : ∀ (o : Nat) (h : ∀ a, (![o, 0] : Fin 2 → Nat) a + S1024x384.size a ≤ S4096x384.size a) (j : Fin 1024)
      (ho : o + j.val < 4096),
      expScores (k0_pay6 (F := Ideal) (queries i x0)) (quarter (F := Ideal) o h (k0_pay3 (F := Ideal) x0)) (ix2 r j)
        = scaledWeight scale x b (tileRow q hq8 r) ⟨o + j.val, ho⟩ := by
    intro o h j ho
    rw [expScores_apply]
    unfold scaledWeight cosSim
    have e : ∀ d' : Fin 384, k0_pay6 (F := Ideal) (queries i x0) (ix2 r d') * quarter (F := Ideal) o h (k0_pay3 (F := Ideal) x0) (ix2 j d')
        = unitRow x b (tileRow q hq8 r) d' * unitRow x b ⟨o + j.val, ho⟩ d' := fun d' => by
      rw [queryKeys_apply x b (queries i x0) (tileRow q hq8) hq0, quarter_apply o h _ j d' ho, keys_apply x b x0 hx0]
    simp only [e]
  have hV : ∀ (o : Nat) (h : ∀ a, (![o, 0] : Fin 2 → Nat) a + S1024x384.size a ≤ S4096x384.size a) (j : Fin 1024)
      (ho : o + j.val < 4096), quarter (F := Ideal) o h (k0_pay4 (F := Ideal) x0) (ix2 j d) = x b ⟨o + j.val, ho⟩ d :=
    fun o h j ho => by rw [quarter_apply o h _ j d ho, vals_apply x b x0 hx0]
  have b0 : ∀ j : Fin 1024, 0 + j.val < 4096 := fun j => by have := j.isLt; omega
  have b1 : ∀ j : Fin 1024, 1024 + j.val < 4096 := fun j => by have := j.isLt; omega
  have b2 : ∀ j : Fin 1024, 2048 + j.val < 4096 := fun j => by have := j.isLt; omega
  have b3 : ∀ j : Fin 1024, 3072 + j.val < 4096 := fun j => by have := j.isLt; omega
  unfold tile
  rw [out_last, den_mid, den_first, num_mid, num_first, queryRows_apply, hq0]
  unfold scaledOut
  refine congrArg₂ (· + ·) rfl (congrArg (resWeight * ·) (congrArg₂ Ideal.div ?_ ?_))
  · rw [Ideal.ofBits_zero_f32,
      ← sum_quarters (fun m => scaledWeight scale x b (tileRow q hq8 r) m * x b m d) b0 b1 b2 b3]
    refine congrArg₂ (· + ·) (congrArg₂ (· + ·) (congrArg₂ (· + ·) (congrArg (0 + ·) ?_) ?_) ?_) ?_
    · exact Finset.sum_congr rfl fun j _ => by rw [hW 0 inb0 j (b0 j), hV 0 inb0 j (b0 j)]
    · exact Finset.sum_congr rfl fun j _ => by rw [hW 1024 inb1 j (b1 j), hV 1024 inb1 j (b1 j)]
    · exact Finset.sum_congr rfl fun j _ => by rw [hW 2048 inb2 j (b2 j), hV 2048 inb2 j (b2 j)]
    · exact Finset.sum_congr rfl fun j _ => by rw [hW 3072 inb3 j (b3 j), hV 3072 inb3 j (b3 j)]
  · rw [Ideal.ofBits_zero_f32,
      ← sum_quarters (fun m => scaledWeight scale x b (tileRow q hq8 r) m) b0 b1 b2 b3]
    refine congrArg₂ (· + ·) (congrArg₂ (· + ·) (congrArg₂ (· + ·) (congrArg (0 + ·) ?_) ?_) ?_) ?_
    · exact Finset.sum_congr rfl fun j _ => hW 0 inb0 j (b0 j)
    · exact Finset.sum_congr rfl fun j _ => hW 1024 inb1 j (b1 j)
    · exact Finset.sum_congr rfl fun j _ => hW 2048 inb2 j (b2 j)
    · exact Finset.sum_congr rfl fun j _ => hW 3072 inb3 j (b3 j)

end Cert.KernelIdeal.Tile

end
-- ==== Proof.KernelArray.lean ====
/-
  From the tiles to the kernel's result array, and the kernel's run read as a value.

  Grid point `t = 8 b + q` writes its tile back to rows `512 q … 512 q + 511` of batch `b` of the `[4, 4096, 384]`
  output array, and every index of that array lies in exactly one such block (the point `8 · i₀ + i₁ / 512`), so after
  the region the output array is the specification's `scaledOut` of the array the region finds, index by index
  (`outArray_eq`). The region finds the argument reshaped to `[4, 4096, 384]`, and the program ends by reshaping the
  output array back to `[4, 64, 64, 384]` (`run`).
-/
import proofs.«408302_j88141318848696_3_alg».proof.Proof.KernelPoints
import proofs.«408302_j88141318848696_3_alg».proof.Proof.KernelValue

set_option maxRecDepth 16384

noncomputable section

open scoped BigOperators

namespace Cert.KernelIdeal.Tile

open Idealize.ShloMosaic Idealize.ShloMosaic.TcCoe Idealize.ShloMosaic.ValueIdx Idealize.SL.Sem
open Idealize.ShloMosaic.Pipeline (Dat)
open Cert.KernelIdeal Cert.KernelIdeal.Gen Cert.CosAttn

variable (m : (ℓ : Loc nD τ sig) → Buf (Elt Ideal) ℓ) (ρ : Dev nD → PrngReg)

/-- A `[4, 4096, 384]` array as a function of batch, position and feature. -/
def arrOf (X : S4x4096x384.Idx → EReal) : Arr := fun b n d => X (ix3 b n d)

/-- The specification's result, as a `[4, 4096, 384]` array, with the kernel's scale. -/
def outArray (X : S4x4096x384.Idx → EReal) : S4x4096x384.Idx → EReal :=
  fun i => scaledOut scale (arrOf X) (i 0) (i 1) (i 2)

/-- The tile of point `t` at a local index `y` is the specification's result at the array index `i` whose
    coordinates are batch `t / 8`, row `512 (t % 8) + y₁`, feature `y₂`. -/
theorem tile_at (c : Dev nD) (t : Fin cfg0.N) (y : S1x512x384.Idx) (i : S4x4096x384.Idx)
    (hi0 : (i 0).val = t.val / 8) (hi1 : (i 1).val = 512 * (t.val % 8) + (y 1).val) (hi2 : (i 2).val = (y 2).val) :
    tile (grid0.coords t) (inBlock m c t) (k0_pay3 (inBlock m c t)) (k0_pay4 (inBlock m c t)) y
      = outArray (V m c main_v0) i := by
  obtain ⟨-, -, -, -, -, -, e6⟩ := idx_facts t
  have hq8 : t.val % 8 < 8 := Nat.mod_lt _ (by decide)
  have hx0 : ∀ (n : Fin 4096) (d : Fin 384), inBlock m c t (ix3 (0 : Fin 1) n d) = arrOf (V m c main_v0) (batchOf t) n d :=
    fun n d => by rw [inBlock_eq]; rfl
  have hy : y = ix3 (0 : Fin 1) (y 1) (y 2) := by
    funext a; apply Fin.ext
    match a with
    | ⟨0, _⟩ => show (y 0).val = 0; have h : (y 0).val < 1 := (y 0).isLt; omega
    | ⟨1, _⟩ => rfl
    | ⟨2, _⟩ => rfl
  have h0 : i 0 = batchOf t := Fin.ext hi0
  have h1 : i 1 = tileRow (t.val % 8) hq8 (y 1) := Fin.ext hi1
  have h2 : i 2 = y 2 := Fin.ext hi2
  rw [hy]
  refine (tile_apply (arrOf (V m c main_v0)) (batchOf t) (grid0.coords t) (t.val % 8) e6 hq8 (inBlock m c t) hx0 (y 1) (y 2)).trans ?_
  unfold outArray
  rw [h0, h1, h2]

/-- WHAT POINT `t` WRITES BACK is block `t` of the specification's result of the array the region finds. -/
theorem flushed_eq (c : Dev nD) (t : Fin cfg0.N) :
    (dats m 0 c).flushed 1 t = ((cfg0.win 1).blk t).view.read (Elt Ideal) (outArray (V m c main_v0)) := by
  show (cfg0.win 1).cut (grid0.coords t) ((dats m 0 c).after 1 t) = _
  rw [after0_1, out_eq]
  obtain ⟨-, -, -, e3, e4, e5, -⟩ := idx_facts t
  funext j
  have hj0 : (j 0).val < 1 := (j 0).isLt
  exact tile_at m c t j (((cfg0.win 1).blk t).view.emb j)
    (by show win0_1.index t (0 : Fin 3) * 1 + 1 * (j 0).val = t.val / 8; omega)
    (by show win0_1.index t (1 : Fin 3) * 512 + 1 * (j 1).val = 512 * (t.val % 8) + (j 1).val; omega)
    (by show win0_1.index t (2 : Fin 3) * 384 + 1 * (j 2).val = (j 2).val; omega)

/-- An index of the output array is in point `t`'s block iff each coordinate is in the block's range on its axis. -/
theorem mem_blk (t : Fin cfg0.N) (i : S4x4096x384.Idx) :
    i ∈ ((cfg0.win 1).blk t).view.set ↔ ∀ a : Fin 3, win0_1.index t a * S1x512x384.size a ≤ (i a).val
      ∧ (i a).val < win0_1.index t a * S1x512x384.size a + S1x512x384.size a := by
  show i ∈ ((View.whole main_v1).slice (win0_1.rect t)).set ↔ _
  rw [View.set_slice_whole, Rect.mem_set_unit]
  exact Iff.rfl

/-- Every index of the output array is in the block of point `8 · i₀ + i₁ / 512`. -/
theorem cover (i : S4x4096x384.Idx) :
    ∃ t : Fin cfg0.N, (cfg0.win 1).flush t = true ∧ i ∈ ((cfg0.win 1).blk t).view.set := by
  have hi0 : (i 0).val < 4 := (i 0).isLt
  have hi1 : (i 1).val < 4096 := (i 1).isLt
  have hi2 : (i 2).val < 384 := (i 2).isLt
  have hN : cfg0.N = 32 := N_0
  have ht : 8 * (i 0).val + (i 1).val / 512 < cfg0.N := by omega
  obtain ⟨-, -, -, e3, e4, e5, -⟩ := idx_facts ⟨8 * (i 0).val + (i 1).val / 512, ht⟩
  refine ⟨⟨8 * (i 0).val + (i 1).val / 512, ht⟩, flush0_1 _, ?_⟩
  rw [mem_blk]
  intro a
  match a with
  | ⟨0, _⟩ =>
    show win0_1.index ⟨8 * (i 0).val + (i 1).val / 512, ht⟩ (0 : Fin 3) * 1 ≤ (i 0).val
      ∧ (i 0).val < win0_1.index ⟨8 * (i 0).val + (i 1).val / 512, ht⟩ (0 : Fin 3) * 1 + 1
    simp only [] at e3; omega
  | ⟨1, _⟩ =>
    show win0_1.index ⟨8 * (i 0).val + (i 1).val / 512, ht⟩ (1 : Fin 3) * 512 ≤ (i 1).val
      ∧ (i 1).val < win0_1.index ⟨8 * (i 0).val + (i 1).val / 512, ht⟩ (1 : Fin 3) * 512 + 512
    simp only [] at e4; omega
  | ⟨2, _⟩ =>
    show win0_1.index ⟨8 * (i 0).val + (i 1).val / 512, ht⟩ (2 : Fin 3) * 384 ≤ (i 2).val
      ∧ (i 2).val < win0_1.index ⟨8 * (i 0).val + (i 1).val / 512, ht⟩ (2 : Fin 3) * 384 + 384
    omega

/-- THE OUTPUT ARRAY after the region: the specification's result of the array the region finds. -/
theorem outArray_eq (c : Dev nD) : (dats m 0 c).arrAt 1 cfg0.N = outArray (V m c main_v0) :=
  (dats m 0 c).arrAt_eq_of_cover 1 (outArray (V m c main_v0)) (fun t _ => flushed_eq m c t) cover

/-- The region finds the argument reshaped to `[4, 4096, 384]`. -/
theorem entry_eq (c : Dev nD) :
    (V m c main_v0 : S4x4096x384.Idx → EReal)
      = shapeCast S4x4096x384 (m ((c : Thread nD τ).loc main_arg0)) shapeCasts_S4x64x64x384_S4x4096x384 := by
  show StableHlo.after hostOps0 (fun b => m (c, b)) (Proc.devRef .tc main_v0) = _
  after_results
  rfl

/-- The program's result in terms of the argument: reshape, the specification's result, reshape back. -/
def result (c : Dev nD) : Buf (Elt Ideal) ((c : Thread nD τ).loc main_v2) :=
  shapeCast S4x64x64x384
    (outArray (shapeCast S4x4096x384 (m ((c : Thread nD τ).loc main_arg0)) shapeCasts_S4x64x64x384_S4x4096x384))
    shapeCasts_S4x4096x384_S4x64x64x384

/-- The lines after the region reshape the output array. -/
theorem tail_eq (c : Dev nD) :
    Pipeline.afterTail₀ cfgs (dats m) 0 (V0 m) [hostOps1] c main_v2 = result m c := by
  unfold Pipeline.afterTail₀
  show StableHlo.after hostOps1 _ (Proc.devRef .tc main_v2) = _
  after_results
  unfold result
  rw [← entry_eq, ← outArray_eq]
  exact congrArg (fun A => shapeCast S4x64x64x384 A shapeCasts_S4x4096x384_S4x64x64x384)
    (Pipeline.withArrays_arr spec0 launch0.win.arr_inj c _ _ 1)

/-- THE RUN, READ: every weakly fair execution of the kernel's program terminates with the result buffer at
    `result` and the argument unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0) :=
  (θ_run defs _ _).mono (fun _ h c =>
      ⟨((h c).2 main_v2 (Pipeline.mem_restRefs_of main_v2 (by decide) (by decide))).trans (tail_eq m c),
        ((h c).2 main_arg0 (Pipeline.mem_restRefs_of main_arg0 (by decide) (by decide))).trans (W_main_arg0 m (dats m) c)⟩)
    (run_main m ρ)

end Cert.KernelIdeal.Tile

end
-- ==== Proof.ReferenceReads.lean ====
/-
  The reference program read index by index: it is the softmax spelling of cosine-similarity attention.

  The program reshapes its input to `x b n d` (batch, position, feature) and then computes, one array operation at a
  time: the sum of squares of each feature row, its square root bounded below by a small constant, the rows divided
  by that norm, the inner products of the normalised rows of one batch, those divided by the temperature, each
  row's largest quotient, the exponentials of the quotients less that maximum, their row sums, the exponentials
  divided by their row sum, the sum over positions of those weights times the rows of `x`, and `x` plus a constant
  times that. Each lemma below reads one of these arrays at coordinates and names the value as the corresponding
  function of `x` from the specification; the last one reads the result.

  Only two kinds of step are not pointwise. A broadcast or a contraction reads its operand at an index computed from
  the result's index: at coordinates that index is again a tuple of coordinates, which the first group of lemmas
  says. A reduction along the last axis runs over the indices that have the result's coordinates in front and the
  reduced coordinate last: for the two sums the generated reading already says so, and for the maximum it is said
  here.
-/
import proofs.«408302_j88141318848696_3_alg».proof.Proof.AttentionSpec
import proofs.«408302_j88141318848696_3_alg».proof.Proof.Gen.ReferenceIdeal.Read

noncomputable section

open scoped BigOperators

namespace Cert.CosAttn

open Idealize.ShloMosaic Idealize.ShloMosaic.ValueIdx Cert.ReferenceIdeal Cert.ReferenceIdeal.Read

/-- The program's input as an array of batch, position and feature: its reshape to `[4, 4096, 384]` at coordinates. -/
abbrev inArr (x0 : (⟨S4x64x64x384, .f32⟩ : BufTy).Contents (Elt Ideal)) : Arr :=
  fun b n d => val_main_v0 (F := Ideal) x0 (ix3 b n d)

/-! ### The operand indices at coordinates -/

/-- A row's `k`-th summand of the sum of squares sits at `(b, n, k)`. -/
theorem idx_sumSq (b : Fin 4) (n : Fin 4096) (k : Fin 384) : idx_main_call0_v1 (ix2 b n) k = ix3 b n k :=
  funext fun a => Fin.ext (by match a with | ⟨0, _⟩ => rfl | ⟨1, _⟩ => rfl | ⟨2, _⟩ => rfl)

/-- The column `[4, 4096, 1]` of row sums reads the row sum at `(b, n)`. -/
theorem idx_sumCol (b : Fin 4) (n : Fin 4096) (z : Fin 1) : idx_main_call0_v2 (ix3 b n z) = ix2 b n :=
  funext fun a => Fin.ext (by match a with | ⟨0, _⟩ => rfl | ⟨1, _⟩ => rfl)

/-- Broadcasting the norm column along the features reads it at `(b, n, 0)`. -/
theorem idx_normBcast (b : Fin 4) (n : Fin 4096) (d : Fin 384) : idx_main_v4 (ix3 b n d) = ix3 b n (0 : Fin 1) :=
  funext fun a => Fin.ext (by match a with | ⟨0, _⟩ => rfl | ⟨1, _⟩ => rfl | ⟨2, _⟩ => rfl)

/-- The similarity of positions `n` and `m` contracts row `n` … -/
theorem lidx_sim (b : Fin 4) (n m : Fin 4096) (k : Fin 384) : lidx_main_v6 (ix3 b n m) k = ix3 b n k :=
  funext fun a => Fin.ext (by match a with | ⟨0, _⟩ => rfl | ⟨1, _⟩ => rfl | ⟨2, _⟩ => rfl)

/-- … with row `m`. -/
theorem ridx_sim (b : Fin 4) (n m : Fin 4096) (k : Fin 384) : ridx_main_v6 (ix3 b n m) k = ix3 b m k :=
  funext fun a => Fin.ext (by match a with | ⟨0, _⟩ => rfl | ⟨1, _⟩ => rfl | ⟨2, _⟩ => rfl)

/-- The column of row maxima reads the maximum at `(b, n)`. -/
theorem idx_maxCol (b : Fin 4) (n : Fin 4096) (z : Fin 1) : idx_main_v12 (ix3 b n z) = ix2 b n :=
  funext fun a => Fin.ext (by match a with | ⟨0, _⟩ => rfl | ⟨1, _⟩ => rfl)

/-- Broadcasting the maxima column along the attended positions reads it at `(b, n, 0)`. -/
theorem idx_maxBcast (b : Fin 4) (n m : Fin 4096) : idx_main_v13 (ix3 b n m) = ix3 b n (0 : Fin 1) :=
  funext fun a => Fin.ext (by match a with | ⟨0, _⟩ => rfl | ⟨1, _⟩ => rfl | ⟨2, _⟩ => rfl)

/-- A row's `k`-th summand of the sum of exponentials sits at `(b, n, k)`. -/
theorem idx_expSum (b : Fin 4) (n k : Fin 4096) : idx_main_v16 (ix2 b n) k = ix3 b n k :=
  funext fun a => Fin.ext (by match a with | ⟨0, _⟩ => rfl | ⟨1, _⟩ => rfl | ⟨2, _⟩ => rfl)

/-- The column of those sums reads the sum at `(b, n)`. -/
theorem idx_expSumCol (b : Fin 4) (n : Fin 4096) (z : Fin 1) : idx_main_v17 (ix3 b n z) = ix2 b n :=
  funext fun a => Fin.ext (by match a with | ⟨0, _⟩ => rfl | ⟨1, _⟩ => rfl)

/-- Broadcasting that column along the attended positions reads it at `(b, n, 0)`. -/
theorem idx_expSumBcast (b : Fin 4) (n m : Fin 4096) : idx_main_v18 (ix3 b n m) = ix3 b n (0 : Fin 1) :=
  funext fun a => Fin.ext (by match a with | ⟨0, _⟩ => rfl | ⟨1, _⟩ => rfl | ⟨2, _⟩ => rfl)

/-- The weighted sum at `(b, n, d)` contracts the weights of row `n` … -/
theorem lidx_mix (b : Fin 4) (n : Fin 4096) (d : Fin 384) (k : Fin 4096) : lidx_main_v20 (ix3 b n d) k = ix3 b n k :=
  funext fun a => Fin.ext (by match a with | ⟨0, _⟩ => rfl | ⟨1, _⟩ => rfl | ⟨2, _⟩ => rfl)

/-- … with feature `d` of every position. -/
theorem ridx_mix (b : Fin 4) (n : Fin 4096) (d : Fin 384) (k : Fin 4096) : ridx_main_v20 (ix3 b n d) k = ix3 b k d :=
  funext fun a => Fin.ext (by match a with | ⟨0, _⟩ => rfl | ⟨1, _⟩ => rfl | ⟨2, _⟩ => rfl)

/-! ### The stages, in program order -/

section Stages

variable (x0 : (⟨S4x64x64x384, .f32⟩ : BufTy).Contents (Elt Ideal))

/-- The row sums of the squared entries: the host sum starts from the zero word. -/
theorem sumSq_read (b : Fin 4) (n : Fin 4096) :
    val_main_call0_v1 (F := Ideal) x0 (ix2 b n) = sumSq (inArr x0) b n := by
  rw [val_main_call0_v1_apply, val_main_call0_cst_apply, Ideal.ofBits_def, Ideal.ofBits_zero_f32, zero_add]
  refine Finset.sum_congr rfl fun k _ => ?_
  rw [idx_sumSq, val_main_call0_v0_apply, Ideal.mulf_def]

/-- The norm column: the square root of the row sum, bounded below by the small constant. -/
theorem rowNorm_read (b : Fin 4) (n : Fin 4096) :
    val_main_v3 (F := Ideal) x0 (ix3 b n (0 : Fin 1)) = rowNorm (inArr x0) b n := by
  rw [val_main_v3_apply, val_main_v1_apply, val_main_call0_v2_apply, idx_sumCol, sumSq_read, val_main_v2_apply,
    val_main_cst_apply, Ideal.maximumf_def, Ideal.hostUnary_sqrt_def, Ideal.ofBits_def]
  rfl

/-- The normalised rows. -/
theorem unitRow_read (b : Fin 4) (n : Fin 4096) (d : Fin 384) :
    val_main_v5 (F := Ideal) x0 (ix3 b n d) = unitRow (inArr x0) b n d := by
  rw [val_main_v5_apply, val_main_v4_apply, idx_normBcast, rowNorm_read, Ideal.hostDivf_def]
  rfl

/-- The similarities: the inner products of the normalised rows of one batch. -/
theorem cosSim_read (b : Fin 4) (n m : Fin 4096) :
    val_main_v6 (F := Ideal) x0 (ix3 b n m) = cosSim (inArr x0) b n m := by
  rw [val_main_v6_apply]
  refine Finset.sum_congr rfl fun k _ => ?_
  rw [lidx_sim, ridx_sim, unitRow_read, unitRow_read]

/-- The logits: the similarities over the temperature. -/
theorem logit_read (b : Fin 4) (n m : Fin 4096) :
    val_main_v8 (F := Ideal) x0 (ix3 b n m) = logit (inArr x0) b n m := by
  rw [val_main_v8_apply, cosSim_read, val_main_v7_apply, val_main_cst_0_apply, Ideal.hostDivf_def, Ideal.ofBits_def]
  rfl

/-- The word the maximum starts from denotes the least extended real. -/
theorem negInf_word : Ideal.ofBits .f32 0xFF800000#32 = ⊥ := by simp [Ideal.ofBits, Ideal.ieee]

/-- The index over `(b, n)` with `k` put on the reduced last axis is `(b, n, k)`. -/
theorem lift_last (h : S4x4096x4096.Reduces [2] S4x4096) (b : Fin 4) (n k : Fin 4096) :
    h.lift (ix2 b n) k = ix3 b n k :=
  funext fun a => Fin.ext (by match a with | ⟨0, _⟩ => rfl | ⟨1, _⟩ => rfl | ⟨2, _⟩ => rfl)

/-- The maximum along the last axis: a maximum is commutative and associative, so the reduction at `(b, n)` is the
    fold of `max` from the least element over the logits of row `n`. -/
theorem maxFold_read (b : Fin 4) (n : Fin 4096) :
    val_main_v9 (F := Ideal) x0 (ix2 b n)
      = (Finset.univ : Finset (Fin 4096)).fold max ⊥ (fun m => logit (inArr x0) b n m) := by
  have h : S4x4096x4096.Reduces [2] S4x4096 := by decide
  have e : (val_main_v8 (F := Ideal) x0 ∘ h.lift (ix2 b n)) = fun m : Fin 4096 => logit (inArr x0) b n m :=
    funext fun k => (congrArg (val_main_v8 (F := Ideal) x0) (lift_last h b n k)).trans (logit_read x0 b n k)
  unfold val_main_v9
  refine (Host.reduce_eq_fold_single _ _ _ _ h _ (ix2 b n)).trans ?_
  rw [val_main_cst_1_apply, Ideal.ofBits_def, negInf_word, e]
  rfl

/-- The row maximum, taken once more against the least element. -/
theorem rowMax_read (b : Fin 4) (n : Fin 4096) :
    val_main_v11 (F := Ideal) x0 (ix2 b n) = rowMax (inArr x0) b n := by
  rw [val_main_v11_apply, val_main_v10_apply, val_main_cst_2_apply, maxFold_read, Ideal.maximumf_def, Ideal.ofBits_def,
    negInf_word]
  rfl

/-- The shifted exponentials. -/
theorem softWeight_read (b : Fin 4) (n m : Fin 4096) :
    val_main_v15 (F := Ideal) x0 (ix3 b n m) = softWeight (inArr x0) b n m := by
  rw [val_main_v15_apply, val_main_v14_apply, logit_read, val_main_v13_apply, idx_maxBcast, val_main_v12_apply,
    idx_maxCol, rowMax_read, Ideal.subf_def, Ideal.hostUnary_exp_def]
  rfl

/-- Their row sums: again a host sum from the zero word. -/
theorem weightSum_read (b : Fin 4) (n : Fin 4096) :
    val_main_v16 (F := Ideal) x0 (ix2 b n) = ∑ j : Fin 4096, softWeight (inArr x0) b n j := by
  rw [val_main_v16_apply, val_main_cst_3_apply, Ideal.ofBits_def, Ideal.ofBits_zero_f32, zero_add]
  refine Finset.sum_congr rfl fun k _ => ?_
  rw [idx_expSum, softWeight_read]

/-- The normalised weights. -/
theorem normWeight_read (b : Fin 4) (n m : Fin 4096) :
    val_main_v19 (F := Ideal) x0 (ix3 b n m)
      = Ideal.div (softWeight (inArr x0) b n m) (∑ j : Fin 4096, softWeight (inArr x0) b n j) := by
  rw [val_main_v19_apply, softWeight_read, val_main_v18_apply, idx_expSumBcast, val_main_v17_apply, idx_expSumCol,
    weightSum_read, Ideal.hostDivf_def]

/-- The weighted sum of the rows of `x`. -/
theorem mix_read (b : Fin 4) (n : Fin 4096) (d : Fin 384) :
    val_main_v20 (F := Ideal) x0 (ix3 b n d)
      = ∑ m : Fin 4096,
          Ideal.div (softWeight (inArr x0) b n m) (∑ j : Fin 4096, softWeight (inArr x0) b n j) * inArr x0 b m d := by
  rw [val_main_v20_apply]
  refine Finset.sum_congr rfl fun k _ => ?_
  rw [lidx_mix, ridx_mix, normWeight_read]

/-- The result before its reshape back: `x` plus the residual weight times the weighted sum. -/
theorem reference_at (b : Fin 4) (n : Fin 4096) (d : Fin 384) :
    val_main_v23 (F := Ideal) x0 (ix3 b n d)
      = softmaxOut (fun b n d => val_main_v0 (F := Ideal) x0 (ix3 b n d)) b n d := by
  rw [val_main_v23_apply, val_main_v22_apply, val_main_v21_apply, val_main_cst_4_apply, mix_read, Ideal.addf_def,
    Ideal.mulf_def, Ideal.ofBits_def]
  rfl

end Stages

end Cert.CosAttn

end
-- ==== Proof.AttentionAlgebra.lean ====
/-
  Cosine-similarity attention on real inputs: the two spellings of the attention weights give one result.

  When every entry of the array is (the coercion of) a real number, so is every intermediate of both spellings. The sum
  of squares of a row is a non-negative real, its square root a real, and the lower bound put under the norm is a
  positive real, so the bounded norm is a positive real and dividing by it is multiplying by its real reciprocal. Hence
  the similarities are reals. The temperature is the real 9395241 / 2^27, so dividing by it is multiplying by
  2^27 / 9395241, the scale of the other spelling: the logits of the two spellings are the same reals. The largest logit
  of a row, a fold of the maximum from the bottom element over a non-empty set of reals, is a real. The exponential of a
  real is a positive real, so both denominators are positive reals.

  What is left is an identity between real numbers. With logits a and rows y, and any real shift t,
  (Σ exp (a m - t) y m) / (Σ exp (a m - t)) = (Σ exp (a m) y m) / (Σ exp (a m)), because exp (a m - t) is
  exp (a m) / exp t and the common factor cancels. One spelling shifts by the scale and divides once at the end; the other
  shifts by the largest logit and divides each weight before summing; both are this quotient.
-/
import proofs.«408302_j88141318848696_3_alg».proof.Proof.AttentionSpec
import Mathlib.Data.EReal.Inv
import Mathlib.Data.Finset.Fold
import Mathlib.Analysis.Real.Sqrt
import Mathlib.Analysis.Complex.Exponential
import Mathlib.Algebra.BigOperators.Field
import Mathlib.Algebra.BigOperators.Ring.Finset
import Mathlib.Algebra.Order.BigOperators.Group.Finset

noncomputable section

open scoped BigOperators

namespace Cert.CosAttn

open Idealize.ShloMosaic

/-! ### Coercions of finite sums, of maxima, and of folds of the maximum -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of extended reals each of which is the coercion of a real is the coercion of the real sum. -/
theorem sum_eq_coe {ι : Type*} (s : Finset ι) (g : ι → EReal) (f : ι → ℝ) (h : ∀ i, g i = (f i : EReal)) :
    ∑ i ∈ s, g i = ((∑ i ∈ s, f i : ℝ) : EReal) :=
  (Finset.sum_congr rfl fun i _ => h i).trans (coe_sum s f).symm

/-- The coercion of the larger of two reals is the larger of the coercions. -/
theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-- The fold of the maximum from the bottom element over a non-empty set of reals is a real. -/
theorem fold_max_coe {ι : Type*} (s : Finset ι) (f : ι → ℝ) :
    s.Nonempty → ∃ M : ℝ, s.fold max (⊥ : EReal) (fun i => (f i : EReal)) = (M : EReal) := by
  classical
  induction s using Finset.induction_on with
  | empty => exact fun h => absurd h Finset.not_nonempty_empty
  | insert a s ha ih =>
    intro _
    rw [Finset.fold_insert ha]
    rcases s.eq_empty_or_nonempty with rfl | hne
    · exact ⟨f a, by rw [Finset.fold_empty]; exact max_eq_left bot_le⟩
    · obtain ⟨M, hM⟩ := ih hne
      exact ⟨max (f a) M, by rw [hM, coe_max]⟩

/-! ### The two literals -/

/-- The lower bound under the norm is the positive real 9223372 / 2^63. -/
theorem eps_eq : eps = ((9223372 / 9223372036854775808 : ℝ) : EReal) := by
  simp [eps, Ideal.ofBits, Ideal.ieee, -EReal.coe_mul]; norm_num

/-- The temperature is the real 9395241 / 2^27. -/
theorem temperature_eq : temperature = ((9395241 / 134217728 : ℝ) : EReal) := by
  simp [temperature, Ideal.ofBits, Ideal.ieee, -EReal.coe_mul]; norm_num

/-! ### Real arrays and the real mirrors of the intermediates -/

/-- A real array of the same shape. -/
abbrev RArr := Fin 4 → Fin 4096 → Fin 384 → ℝ

/-- A real array read as an array of extended reals. -/
def coeArr (r : RArr) : Arr := fun b n d => (r b n d : EReal)

/-- The real sum of squares of a row. -/
def sumSqR (r : RArr) (b : Fin 4) (n : Fin 4096) : ℝ := ∑ d : Fin 384, r b n d * r b n d
/-- The real norm of a row, bounded below by 9223372 / 2^63. -/
def rowNormR (r : RArr) (b : Fin 4) (n : Fin 4096) : ℝ :=
  max (Real.sqrt (sumSqR r b n)) (9223372 / 9223372036854775808)
/-- The real normalised row. -/
def unitRowR (r : RArr) (b : Fin 4) (n : Fin 4096) (d : Fin 384) : ℝ := r b n d * (1 / rowNormR r b n)
/-- The real cosine similarity. -/
def cosSimR (r : RArr) (b : Fin 4) (n m : Fin 4096) : ℝ := ∑ d : Fin 384, unitRowR r b n d * unitRowR r b m d

variable (r : RArr) (b : Fin 4) (n m : Fin 4096) (d : Fin 384)

theorem sumSqR_nonneg : 0 ≤ sumSqR r b n := Finset.sum_nonneg fun d _ => mul_self_nonneg (r b n d)

theorem rowNormR_pos : 0 < rowNormR r b n := lt_max_of_lt_right (by norm_num)

theorem sumSq_coe : sumSq (coeArr r) b n = (sumSqR r b n : EReal) :=
  sum_eq_coe _ _ _ fun d => (EReal.coe_mul (r b n d) (r b n d)).symm

theorem rowNorm_coe : rowNorm (coeArr r) b n = (rowNormR r b n : EReal) := by
  unfold rowNorm rowNormR
  rw [sumSq_coe, Ideal.sqrt_coe, if_neg (not_lt.mpr (sumSqR_nonneg r b n)), eps_eq, coe_max]

theorem unitRow_coe : unitRow (coeArr r) b n d = (unitRowR r b n d : EReal) := by
  unfold unitRow unitRowR
  rw [rowNorm_coe, Ideal.div_coe (rowNormR_pos r b n).ne', EReal.coe_mul]
  rfl

theorem cosSim_coe : cosSim (coeArr r) b n m = (cosSimR r b n m : EReal) :=
  sum_eq_coe _ _ _ fun d => by rw [unitRow_coe, unitRow_coe, EReal.coe_mul]

/-- The unnormalised weight of the first spelling, for a real scale. -/
theorem scaledWeight_coe (s : ℝ) :
    scaledWeight (s : EReal) (coeArr r) b n m = ((Real.exp (cosSimR r b n m * s - s) : ℝ) : EReal) := by
  unfold scaledWeight
  rw [cosSim_coe, ← EReal.coe_mul, ← EReal.coe_sub, Ideal.exp_coe]

/-- The logit of the second spelling: the similarity times 2^27 / 9395241. -/
theorem logit_coe : logit (coeArr r) b n m = ((cosSimR r b n m * (134217728 / 9395241) : ℝ) : EReal) := by
  unfold logit
  rw [cosSim_coe, temperature_eq, Ideal.div_coe (by norm_num), ← EReal.coe_mul]
  norm_num

/-- The largest logit of a row is a real. -/
theorem rowMax_coe : ∃ M : ℝ, rowMax (coeArr r) b n = (M : EReal) := by
  unfold rowMax
  rw [funext fun m => logit_coe r b n m]
  obtain ⟨M, hM⟩ := fold_max_coe Finset.univ (fun m => cosSimR r b n m * (134217728 / 9395241)) Finset.univ_nonempty
  exact ⟨M, by rw [hM]; exact max_eq_right bot_le⟩

/-- The shifted exponential of the second spelling, once the largest logit is named. -/
theorem softWeight_coe {M : ℝ} (hM : rowMax (coeArr r) b n = (M : EReal)) :
    softWeight (coeArr r) b n m = ((Real.exp (cosSimR r b n m * (134217728 / 9395241) - M) : ℝ) : EReal) := by
  unfold softWeight
  rw [logit_coe, hM, ← EReal.coe_sub, Ideal.exp_coe]

/-! ### A softmax does not change when one number is subtracted from all its logits -/

section Shift

variable {ι : Type*} [Fintype ι] [Nonempty ι] (a y : ι → ℝ)

theorem sum_exp_pos (t : ℝ) : 0 < ∑ i, Real.exp (a i - t) :=
  Finset.sum_pos (fun i _ => Real.exp_pos _) Finset.univ_nonempty

/-- Shift by \`t\`, sum the weighted rows and the weights, divide once: the quotient without the shift. -/
theorem shift_normal (t : ℝ) :
    (∑ i, Real.exp (a i - t) * y i) * (1 / ∑ i, Real.exp (a i - t))
      = (∑ i, Real.exp (a i) * y i) / ∑ i, Real.exp (a i) := by
  have hpos : 0 < ∑ i, Real.exp (a i) := Finset.sum_pos (fun i _ => Real.exp_pos _) Finset.univ_nonempty
  have ht : 0 < Real.exp t := Real.exp_pos t
  have h1 : ∑ i, Real.exp (a i - t) * y i = (∑ i, Real.exp (a i) * y i) / Real.exp t := by
    rw [Finset.sum_div]
    exact Finset.sum_congr rfl fun i _ => by rw [Real.exp_sub]; ring
  have h2 : ∑ i, Real.exp (a i - t) = (∑ i, Real.exp (a i)) / Real.exp t := by
    rw [Finset.sum_div]
    exact Finset.sum_congr rfl fun i _ => Real.exp_sub _ _
  rw [h1, h2]
  field_simp

/-- Divide each weight before summing: the same as dividing once at the end. -/
theorem sum_normalised (t : ℝ) :
    ∑ i, Real.exp (a i - t) * (1 / ∑ j, Real.exp (a j - t)) * y i
      = (∑ i, Real.exp (a i - t) * y i) * (1 / ∑ j, Real.exp (a j - t)) := by
  rw [Finset.sum_mul]
  exact Finset.sum_congr rfl fun i _ => by ring

/-- The two spellings, as real numbers, for any two shifts. -/
theorem softmax_shift (u v : ℝ) :
    (∑ i, Real.exp (a i - u) * y i) * (1 / ∑ i, Real.exp (a i - u))
      = ∑ i, Real.exp (a i - v) * (1 / ∑ j, Real.exp (a j - v)) * y i := by
  rw [sum_normalised, shift_normal, shift_normal]

end Shift

/-! ### The two spellings on a real array -/

/-- The attended term of the first spelling is the coercion of the real quotient. -/
theorem scaled_term (s : ℝ) :
    Ideal.div (∑ m : Fin 4096, scaledWeight (s : EReal) (coeArr r) b n m * coeArr r b m d)
        (∑ m : Fin 4096, scaledWeight (s : EReal) (coeArr r) b n m)
      = (((∑ m : Fin 4096, Real.exp (cosSimR r b n m * s - s) * r b m d)
          * (1 / ∑ m : Fin 4096, Real.exp (cosSimR r b n m * s - s)) : ℝ) : EReal) := by
  have hN : ∑ m : Fin 4096, scaledWeight (s : EReal) (coeArr r) b n m * coeArr r b m d
      = ((∑ m : Fin 4096, Real.exp (cosSimR r b n m * s - s) * r b m d : ℝ) : EReal) :=
    sum_eq_coe _ _ _ fun m => by rw [scaledWeight_coe, EReal.coe_mul]; rfl
  have hD : ∑ m : Fin 4096, scaledWeight (s : EReal) (coeArr r) b n m
      = ((∑ m : Fin 4096, Real.exp (cosSimR r b n m * s - s) : ℝ) : EReal) :=
    sum_eq_coe _ _ _ fun m => scaledWeight_coe r b n m s
  rw [hN, hD, Ideal.div_coe (sum_exp_pos (fun m => cosSimR r b n m * s) s).ne', ← EReal.coe_mul]

/-- The attended term of the second spelling is the coercion of the real sum of normalised weights times rows. -/
theorem soft_term {M : ℝ} (hM : rowMax (coeArr r) b n = (M : EReal)) :
    ∑ m : Fin 4096, Ideal.div (softWeight (coeArr r) b n m) (∑ j : Fin 4096, softWeight (coeArr r) b n j) * coeArr r b m d
      = ((∑ m : Fin 4096, Real.exp (cosSimR r b n m * (134217728 / 9395241) - M)
            * (1 / ∑ j : Fin 4096, Real.exp (cosSimR r b n j * (134217728 / 9395241) - M)) * r b m d : ℝ) : EReal) := by
  have hD : ∑ j : Fin 4096, softWeight (coeArr r) b n j
      = ((∑ j : Fin 4096, Real.exp (cosSimR r b n j * (134217728 / 9395241) - M) : ℝ) : EReal) :=
    sum_eq_coe _ _ _ fun j => softWeight_coe r b n j hM
  refine sum_eq_coe _ _ _ fun m => ?_
  rw [hD, Ideal.div_coe (sum_exp_pos (fun j => cosSimR r b n j * (134217728 / 9395241)) M).ne', softWeight_coe r b n m hM,
    EReal.coe_mul, EReal.coe_mul]
  rfl

/-- On a real array the two spellings agree. -/
theorem scaledOut_coeArr :
    scaledOut ((134217728 / 9395241 : ℝ) : EReal) (coeArr r) b n d = softmaxOut (coeArr r) b n d := by
  obtain ⟨M, hM⟩ := rowMax_coe r b n
  unfold scaledOut softmaxOut
  rw [scaled_term, soft_term r b n d hM]
  exact congrArg (fun t : ℝ => coeArr r b n d + resWeight * (t : EReal))
    (softmax_shift (fun m => cosSimR r b n m * (134217728 / 9395241)) (fun m => r b m d) (134217728 / 9395241) M)

/-- When every entry of the array is a real number, scaling the similarity by 2^27 / 9395241, shifting by that scale and
    dividing once at the end gives what dividing by the temperature, shifting by the row's largest logit and normalising
    before the sum gives. -/
theorem scaledOut_eq_softmaxOut (x : Arr) (hx : ∀ b n d, ∃ r : ℝ, x b n d = (r : EReal)) (b : Fin 4) (n : Fin 4096)
    (d : Fin 384) : scaledOut ((134217728 / 9395241 : ℝ) : EReal) x b n d = softmaxOut x b n d := by
  choose r hr using hx
  have hxr : x = coeArr r := funext fun b => funext fun n => funext fun d => hr b n d
  rw [hxr]
  exact scaledOut_coeArr r b n d

end Cert.CosAttn

end
-- ==== Proof.Bridge.lean ====
/-
  The two programs compute one array.

  On the `[4, 4096, 384]` reshaping `X` of a finite input, the reference's result before its last reshape is the
  specification's `softmaxOut` of `X` at every index, and the kernel's output array is the specification's
  `scaledOut` of `X` with the kernel's scale. The kernel's scale is the rational `134217728 / 9395241`, which is
  `1 / temperature` for the temperature's exact value `9395241 / 134217728`; with it, and every entry of `X` a real
  number, `scaledOut` and `softmaxOut` agree (a softmax is unchanged by subtracting one number from all its logits, and
  dividing the weighted sum once by the total weight is summing the normalised weights).
-/
import proofs.«408302_j88141318848696_3_alg».proof.Proof.KernelArray
import proofs.«408302_j88141318848696_3_alg».proof.Proof.ReferenceReads
import proofs.«408302_j88141318848696_3_alg».proof.Proof.AttentionAlgebra
import Idealize.ShloMosaic.PureOps.IdealRules

noncomputable section

namespace Cert.CosAttn

open Idealize.ShloMosaic Idealize.ShloMosaic.ValueIdx
open Cert.ReferenceIdeal Cert.ReferenceIdeal.Read

/-- The kernel's named scale denotes `134217728 / 9395241`, by the certificate's table. -/
theorem scale_eq : Cert.KernelIdeal.Tile.scale = ((134217728 / 9395241 : ℝ) : EReal) :=
  IdealRules.named_const.ideal_named_scalar _ _ _ _ rfl

/-- On a finite input, the reference's result before its last reshape is the kernel's output array of the reshaped
    input, index by index. -/
theorem reference_eq_outArray (x0 : (⟨S4x64x64x384, .f32⟩ : BufTy).Contents (Elt Ideal))
    (hfin : ∀ i, ∃ r : ℝ, x0 i = (r : EReal)) :
    val_main_v23 (F := Ideal) x0 = Cert.KernelIdeal.Tile.outArray (val_main_v0 (F := Ideal) x0) := by
  funext i
  obtain ⟨b, n, d, rfl⟩ : ∃ (b : Fin 4) (n : Fin 4096) (d : Fin 384), i = ix3 b n d := ⟨i 0, i 1, i 2, eq_ix3 i⟩
  rw [reference_at]
  show _ = scaledOut Cert.KernelIdeal.Tile.scale (inArr x0) b n d
  rw [scale_eq]
  exact (scaledOut_eq_softmaxOut (inArr x0) (fun b n d => by
    obtain ⟨r, hr⟩ := hfin (idx_main_v0 (ix3 b n d))
    exact ⟨r, (val_main_v0_apply x0 _).trans hr⟩) b n d).symm

end Cert.CosAttn

end
-- ==== Proof.FiniteInputs.lean ====
/-
  An array that passes the finiteness test has only real entries.

  The test is `all (|x| < +∞)` over the whole array: the absolute value of every entry is compared with the f32 word of
  `+∞`, and the comparisons are folded by `and` over all four axes into one bit. On the extended reals the absolute
  value is `max x (-x)`, and the word of `+∞` is `⊤`. If the folded bit is 1 then every comparison is 1, so
  `max x (-x) < ⊤` at every entry; this excludes `x = ⊤` (then `max x (-x) = ⊤`) and `x = ⊥` (then `-x = ⊤`), and what
  is left of the extended reals is the real numbers.
-/
import proofs.«408302_j88141318848696_3_alg».proof.Pre_finite_inputs
import Idealize.ShloMosaic.Lib.ReduceAll
import Idealize.ShloMosaic.Lib.ValueIdx
import Idealize.ShloMosaic.PureOps.Ideal.Laws
import Mathlib.Data.EReal.Basic

namespace Cert.CosAttn

open Idealize.ShloMosaic

/-- The scalar shape has one index. -/
instance : Subsingleton Cert.Pre_finite_inputs.S_.Idx := ⟨fun a b => funext fun d => d.elim0⟩

/-- The f32 word `0x7F800000` is `+∞`. -/
theorem posInf_eq_top : Ideal.ofBits .f32 0x7F800000#32 = (⊤ : EReal) := by simp [Ideal.ofBits, Ideal.ieee]

/-- An extended real whose absolute value `max x (-x)` is below `⊤` is a real number. -/
theorem exists_real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- If the finiteness test of `x0` is true then every entry of `x0` is a real number. -/
theorem real_of_finite_inputs [Cert.Pre_finite_inputs.Facts] (x0 : FVec Ideal Cert.Pre_finite_inputs.S4x64x64x384 .f32)
    (h : Cert.Pre_finite_inputs.fn (F := Ideal) x0 = fun _ => 1#1) : ∀ i, ∃ r : ℝ, x0 i = (r : EReal) := by
  intro i
  -- the one bit of the result, with the printed function unfolded to its fold by `and`
  have h0 := congrFun h ValueIdx.ix0
  dsimp only [Cert.Pre_finite_inputs.fn] at h0
  -- a fold by `and` that is 1 met only 1s: the comparison at `i` is 1
  have hi := Host.reduce_andi_all _ _ _ _ _ h0 i
  -- the comparison at `i` is `|x0 i| < +∞` on the extended reals
  have hlt : max (x0 i) (-(x0 i)) < Ideal.ofBits .f32 0x7F800000#32 := by
    change BitVec.ofBool (decide (max (x0 i) (-(x0 i)) < Ideal.ofBits .f32 0x7F800000#32)) = 1#1 at hi
    by_contra hn
    rw [decide_eq_false hn] at hi
    exact absurd hi (by decide)
  rw [posInf_eq_top] at hlt
  exact exists_real_of_abs_lt_top _ hlt

end Cert.CosAttn
-- ==== Proof.lean ====
/-
  Cosine-similarity self-attention with a residual: a kernel and its reference compute the same array over the extended reals.

  Both programs reshape the input `[4, 64, 64, 384]` to `X : [4, 4096, 384]`, divide each feature row by
  `max (its norm, eps)`, take the inner products of the normalised rows of one batch, and return
  `X + 0.3 · (softmax-weighted mean of the rows of X)`, reshaped back. The reference divides the similarities by
  the temperature (the f32 word of `0.07`, exactly `9395241 / 2^27`), shifts by the row maximum and normalises the
  weights; the kernel multiplies by the folded reciprocal, read as the rational `2^27 / 9395241`, shifts by that same
  constant, and divides the weighted sum by the total weight at the end, accumulating both over four quarters of the
  keys and reusing, within a batch, the normalised rows it stored at the batch's first grid point.

  The modules: AttentionSpec (the two spellings as functions), AttentionAlgebra (they agree on real inputs),
  ReferenceReads (the reference is the second spelling), KernelTile / KernelPoints / KernelValue / KernelArray (the
  kernel's run leaves the first spelling in its output array), FiniteInputs (the precondition makes every entry a
  real), Bridge (the two result arrays are equal).
-/
import proofs.«408302_j88141318848696_3_alg».proof.Defs
import proofs.«408302_j88141318848696_3_alg».proof.Proof.Gen.Kernel
import proofs.«408302_j88141318848696_3_alg».proof.Proof.Gen.Kernel.Skeleton
import proofs.«408302_j88141318848696_3_alg».proof.Proof.Gen.Kernel.Launch
import proofs.«408302_j88141318848696_3_alg».proof.Proof.Gen.Kernel.Points
import proofs.«408302_j88141318848696_3_alg».proof.Proof.Gen.Kernel.Frame
import proofs.«408302_j88141318848696_3_alg».proof.Proof.Gen.KernelIdeal
import proofs.«408302_j88141318848696_3_alg».proof.Proof.Gen.KernelIdeal.Skeleton
import proofs.«408302_j88141318848696_3_alg».proof.Proof.Gen.KernelIdeal.Launch
import proofs.«408302_j88141318848696_3_alg».proof.Proof.Gen.KernelIdeal.Points
import proofs.«408302_j88141318848696_3_alg».proof.Proof.Gen.KernelIdeal.Frame
import proofs.«408302_j88141318848696_3_alg».proof.Proof.Gen.ReferenceIdeal
import proofs.«408302_j88141318848696_3_alg».proof.Proof.Gen.Pre_finite_inputs
import proofs.«408302_j88141318848696_3_alg».proof.Proof.Gen.ReferenceIdeal.Run
import proofs.«408302_j88141318848696_3_alg».proof.Proof.Gen.ReferenceIdeal.Read
import proofs.«408302_j88141318848696_3_alg».proof.Proof.Bridge
import proofs.«408302_j88141318848696_3_alg».proof.Proof.FiniteInputs
import Idealize.ShloMosaic.Adequacy
import Idealize.ShloMosaic.Init

noncomputable section

namespace Cert.Proof

open Idealize.ShloMosaic Idealize.SL.Sem

/-- The word-level kernel runs and leaves its argument unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- One ledger entry, eight times: the scale (and the shift) in each of the four quarters is the named constant,
    which the certificate's table reads as `2^27 / 9395241`. -/
theorem named_scale : IdealRules.named_const.Statement Cert.KernelIdeal.κ "inv_temperature" .f32 0x41649249#32
    ((134217728 / 9395241 : ℝ) : EReal) :=
  IdealRules.named_const.statement Cert.KernelIdeal.κ "inv_temperature" .f32 0x41649249#32 ((134217728 / 9395241 : ℝ) : EReal) rfl

theorem preserves : Cert.preserves_Kernel_KernelIdeal :=
  ⟨named_scale, named_scale, named_scale, named_scale, named_scale, named_scale, named_scale, named_scale⟩

/-- From memories that agree on a finite input both programs end with the same result: the reshaping back of the
    one array of Bridge.lean. -/
theorem algebraic : Cert.algebraic_KernelIdeal_ReferenceIdeal := by
  intro m ρ m' ρ' hpre hagree
  refine ⟨fun c => Cert.KernelIdeal.Tile.result m c, Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, hagree c]
  exact congrArg (fun A => shapeCast _ A Cert.ReferenceIdeal.Gen.facts.shapeCasts_S4x4096x384_S4x64x64x384)
    (Cert.CosAttn.reference_eq_outArray _ (Cert.CosAttn.real_of_finite_inputs _ (hpre c)))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
